-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000 : Shape := ⟨1, ![1000000]⟩
abbrev S64 : Shape := ⟨1, ![64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64 : S_.BroadcastsInDim S64 (![] : Fin 0 → Fin S64.rank)
  reducesTo_S64_S_d0 : S64.ReducesTo [0] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg1 : IVec S1000000 32) (main_v13 : IVec S_ 1) (main_v15 : IVec S1000000 1) (main_c_5 : IVec S_ 1) : IVec S_ 1 :=
  let main_v16 : IVec S_ 1 := (fun x v => Host.reduce IntOp.andi x v reducesTo_S1000000_S_d0 h_S_) main_v15 main_c_5
  let main_v17 : IVec S_ 1 := andi main_v13 main_v16
  let main_c_6 : IVec S_ 32 := constantI S_ 32 8#32
  let main_v18 : IVec S1000000 32 := broadcastInDim S1000000 ![] bcast_S_S1000000 main_c_6
  let main_v19 : IVec S1000000 1 := cmpi .slt main_arg1 main_v18
  let main_c_7 : IVec S_ 1 := constantI S_ 1 1#1
  let main_v20 : IVec S_ 1 := (fun x v => Host.reduce IntOp.andi x v reducesTo_S1000000_S_d0 h_S_) main_v19 main_c_7
  let main_v21 : IVec S_ 1 := andi main_v17 main_v20
  main_v21

def fn {F : FTy → Type} [FloatOps F] (main_arg0 : FVec F S1000000x64 .f32) (main_arg1 : IVec S1000000 32) (main_arg2 : FVec F S64 .f32) (main_arg3 : FVec F S64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 0#32
  let main_v14 : IVec S1000000 32 := broadcastInDim S1000000 ![] bcast_S_S1000000 main_c_4
  let main_v15 : IVec S1000000 1 := cmpi .sge main_arg1 main_v14
  let main_c_5 : IVec S_ 1 := constantI S_ 1 1#1
  fn_part1 (F := F) main_arg1 main_v13 main_v15 main_c_5
-- ==== Kernel.lean ====
abbrev S1000000x64 : Shape := ⟨2, ![1000000, 64]⟩
abbrev S1000000 : Shape := ⟨1, ![1000000]⟩
abbrev S64 : Shape := ⟨1, ![64]⟩
abbrev S1000000x1 : Shape := ⟨2, ![1000000, 1]⟩
abbrev S8x64 : Shape := ⟨2, ![8, 64]⟩
abbrev S8x1 : Shape := ⟨2, ![8, 1]⟩
abbrev S5000x64 : Shape := ⟨2, ![5000, 64]⟩
abbrev S5000x1 : Shape := ⟨2, ![5000, 1]⟩
abbrev S5000 : Shape := ⟨1, ![5000]⟩
abbrev S5000x8 : Shape := ⟨2, ![5000, 8]⟩
abbrev S_ : Shape := ⟨0, ![]⟩
abbrev S1x64 : Shape := ⟨2, ![1, 64]⟩

abbrev nBuf : Space → Nat
  | .hbm => 29
  | .vmem => 17
  | .smem => 0
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S64, .f32⟩
  | .hbm, ⟨3, _⟩ => ⟨S64, .f32⟩
  | .hbm, ⟨4, _⟩ => ⟨S1000000x1, .i32⟩
  | .hbm, ⟨5, _⟩ => ⟨S8x64, .f32⟩
  | .hbm, ⟨6, _⟩ => ⟨S8x64, .f32⟩
  | .hbm, ⟨7, _⟩ => ⟨S8x1, .f32⟩
  | .hbm, ⟨8, _⟩ => ⟨S_, .f32⟩
  | .hbm, ⟨9, _⟩ => ⟨S_, .f32⟩
  | .hbm, ⟨10, _⟩ => ⟨S8x1, .f32⟩
  | .hbm, ⟨11, _⟩ => ⟨S8x1, .f32⟩
  | .hbm, ⟨12, _⟩ => ⟨S8x64, .f32⟩
  | .hbm, ⟨13, _⟩ => ⟨S8x64, .f32⟩
  | .hbm, ⟨14, _⟩ => ⟨S8x64, .f32⟩
  | .hbm, ⟨15, _⟩ => ⟨S8x64, .f32⟩
  | .hbm, ⟨16, _⟩ => ⟨S8x64, .f32⟩
  | .hbm, ⟨17, _⟩ => ⟨S8x64, .f32⟩
  | .hbm, ⟨18, _⟩ => ⟨S_, .f32⟩
  | .hbm, ⟨19, _⟩ => ⟨S8x64, .f32⟩
  | .hbm, ⟨20, _⟩ => ⟨S8x64, .f32⟩
  | .hbm, ⟨21, _⟩ => ⟨S_, .f32⟩
  | .hbm, ⟨22, _⟩ => ⟨S8x64, .f32⟩
  | .hbm, ⟨23, _⟩ => ⟨S8x64, .f32⟩
  | .hbm, ⟨24, _⟩ => ⟨S8x64, .f32⟩
  | .hbm, ⟨25, _⟩ => ⟨S_, .f32⟩
  | .hbm, ⟨26, _⟩ => ⟨S8x64, .f32⟩
  | .hbm, ⟨27, _⟩ => ⟨S8x64, .f32⟩
  | .hbm, ⟨28, _⟩ => ⟨S1000000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .i32⟩
  | .local _ .vmem, ⟨3, _⟩ => ⟨S5000x1, .i32⟩
  | .local _ .vmem, ⟨4, _⟩ => ⟨S8x64, .f32⟩
  | .local _ .vmem, ⟨5, _⟩ => ⟨S8x64, .f32⟩
  | .local _ .vmem, ⟨6, _⟩ => ⟨S8x1, .f32⟩
  | .local _ .vmem, ⟨7, _⟩ => ⟨S5000x64, .f32⟩
  | .local _ .vmem, ⟨8, _⟩ => ⟨S5000x64, .f32⟩
  | .local _ .vmem, ⟨9, _⟩ => ⟨S5000x1, .i32⟩
  | .local _ .vmem, ⟨10, _⟩ => ⟨S5000x1, .i32⟩
  | .local _ .vmem, ⟨11, _⟩ => ⟨S8x64, .f32⟩
  | .local _ .vmem, ⟨12, _⟩ => ⟨S8x64, .f32⟩
  | .local _ .vmem, ⟨13, _⟩ => ⟨S64, .f32⟩
  | .local _ .vmem, ⟨14, _⟩ => ⟨S64, .f32⟩
  | .local _ .vmem, ⟨15, _⟩ => ⟨S5000x64, .f32⟩
  | .local _ .vmem, ⟨16, _⟩ => ⟨S5000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S1000000_S1000000x1_0 : S1000000.BroadcastsInDim S1000000x1 (![0] : Fin 1 → Fin S1000000x1.rank)
  inb_S8x64_S8x64_0_0 : ∀ a, (![0, 0] : Fin 2 → Nat) a + S8x64.size a ≤ S8x64.size a
  h_S8x64 : 0 < S8x64.numel
  inb_S8x1_S8x1_0_0 : ∀ a, (![0, 0] : Fin 2 → Nat) a + S8x1.size a ≤ S8x1.size a
  h_S8x1 : 0 < S8x1.numel
  inb_S5000x1_S5000x1_0_0 : ∀ a, (![0, 0] : Fin 2 → Nat) a + S5000x1.size a ≤ S5000x1.size a
  h_S5000x1 : 0 < S5000x1.numel
  shapeCasts_S5000x1_S5000 : S5000x1.ShapeCasts S5000
  iota_S5000x8_d1_w32 : S5000x8.Iotas .tc 32 [1]
  shapeCasts_S5000_S5000x1 : S5000.ShapeCasts S5000x1
  broadcasts_S5000x1_S5000x8 : S5000x1.Broadcasts S5000x8
  natLt_1_32 : 1 < 32
  inb_S5000x64_S5000x64_0_0 : ∀ a, (![0, 0] : Fin 2 → Nat) a + S5000x64.size a ≤ S5000x64.size a
  h_S5000x64 : 0 < S5000x64.numel
  shapeCasts_S8x64_S8x64 : S8x64.ShapeCasts S8x64
  shapeCasts_S8x1_S8x1 : S8x1.ShapeCasts S8x1
  bcast_S_S8x1 : S_.BroadcastsInDim S8x1 (![] : Fin 0 → Fin S8x1.rank)
  bcast_S8x1_S8x64_0_1 : S8x1.BroadcastsInDim S8x64 (![0, 1] : Fin 2 → Fin S8x64.rank)
  bcast_S_S8x64 : S_.BroadcastsInDim S8x64 (![] : Fin 0 → Fin S8x64.rank)
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  dot_S5000x8_S5000x64_S8x64_0_0_1_1_n_n_wf : DotDims.WF S5000x8 S5000x64 S8x64 [0] [0] [1] [1] [] []
  dot_S5000x8_S5000x1_S8x1_0_0_1_1_n_n_wf : DotDims.WF S5000x8 S5000x1 S8x1 [0] [0] [1] [1] [] []
  dot_S5000x8_S8x64_S5000x64_1_0_0_1_n_n_wf : DotDims.WF S5000x8 S8x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1000000x64.size a
  hwx0_0 : ∀ i : grid0.Coords, EltTy.bits .f32 = 32 ∨ (Rect.block (s := S1000000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S1000000x1.size a
  hwx0_1 : ∀ i : grid0.Coords, EltTy.bits .i32 = 32 ∨ (Rect.block (s := S1000000x1) S5000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S8x64.size a
  hwx0_2 : ∀ i : grid0.Coords, EltTy.bits .f32 = 32 ∨ (Rect.block (s := S8x64) S8x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S8x64.size a
  hwx0_3 : ∀ i : grid0.Coords, EltTy.bits .f32 = 32 ∨ (Rect.block (s := S8x64) S8x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S8x1.size a
  hwx0_4 : ∀ i : grid0.Coords, EltTy.bits .f32 = 32 ∨ (Rect.block (s := S8x1) S8x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S1000000x64.size a
  hwx1_0 : ∀ i : grid1.Coords, EltTy.bits .f32 = 32 ∨ (Rect.block (s := S1000000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S1000000x1.size a
  hwx1_1 : ∀ i : grid1.Coords, EltTy.bits .i32 = 32 ∨ (Rect.block (s := S1000000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x64.size a ≤ S8x64.size a
  hwx1_2 : ∀ i : grid1.Coords, EltTy.bits .f32 = 32 ∨ (Rect.block (s := S8x64) S8x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x64.size a ≤ S8x64.size a
  hwx1_3 : ∀ i : grid1.Coords, EltTy.bits .f32 = 32 ∨ (Rect.block (s := S8x64) S8x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S1000000x64.size a
  hwx1_6 : ∀ i : grid1.Coords, EltTy.bits .f32 = 32 ∨ (Rect.block (s := S1000000x64) S5000x64.size (cc1_transform_6 i) (hinb1_6 i)).WholeWords (EltTy.packing .f32)

variable [Facts₀]

def dot_S5000x8_S5000x64_S8x64_0_0_1_1_n_n : DotDims S5000x8 S5000x64 S8x64 where
  lhsContracting := [0]
  rhsContracting := [0]
  lhsNonContracting := [1]
  rhsNonContracting := [1]
  lhsBatch := []
  rhsBatch := []
  wf := dot_S5000x8_S5000x64_S8x64_0_0_1_1_n_n_wf
def dot_S5000x8_S5000x1_S8x1_0_0_1_1_n_n : DotDims S5000x8 S5000x1 S8x1 where
  lhsContracting := [0]
  rhsContracting := [0]
  lhsNonContracting := [1]
  rhsNonContracting := [1]
  lhsBatch := []
  rhsBatch := []
  wf := dot_S5000x8_S5000x1_S8x1_0_0_1_1_n_n_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S8x64.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S8x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S8x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S8x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S8x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1000000x64 : Shape := ⟨2, ![1000000, 64]⟩
abbrev S1000000 : Shape := ⟨1, ![1000000]⟩
abbrev S64 : Shape := ⟨1, ![64]⟩
abbrev S_ : Shape := ⟨0, ![]⟩
abbrev S8 : Shape := ⟨1, ![8]⟩
abbrev S1000000x1 : Shape := ⟨2, ![1000000, 1]⟩
abbrev S8x1 : Shape := ⟨2, ![8, 1]⟩
abbrev S8x64 : Shape := ⟨2, ![8, 64]⟩
abbrev S1x64 : Shape := ⟨2, ![1, 64]⟩

abbrev nBuf : Space → Nat
  | .hbm => 58
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S1000000, .f32⟩
  | .hbm, ⟨6, _⟩ => ⟨S_, .f32⟩
  | .hbm, ⟨7, _⟩ => ⟨S8, .f32⟩
  | .hbm, ⟨8, _⟩ => ⟨S1000000x1, .i32⟩
  | .hbm, ⟨9, _⟩ => ⟨S8, .f32⟩
  | .hbm, ⟨10, _⟩ => ⟨S_, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8x1, .f32⟩
  | .hbm, ⟨15, _⟩ => ⟨S_, .f32⟩
  | .hbm, ⟨16, _⟩ => ⟨S8x64, .f32⟩
  | .hbm, ⟨17, _⟩ => ⟨S1000000x1, .i32⟩
  | .hbm, ⟨18, _⟩ => ⟨S8x64, .f32⟩
  | .hbm, ⟨19, _⟩ => ⟨S8x64, .f32⟩
  | .hbm, ⟨20, _⟩ => ⟨S8x64, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .f32⟩
  | .hbm, ⟨30, _⟩ => ⟨S1000000x64, .f32⟩
  | .hbm, ⟨31, _⟩ => ⟨S1000000x64, .f32⟩
  | .hbm, ⟨32, _⟩ => ⟨S_, .f32⟩
  | .hbm, ⟨33, _⟩ => ⟨S8x64, .f32⟩
  | .hbm, ⟨34, _⟩ => ⟨S1000000x1, .i32⟩
  | .hbm, ⟨35, _⟩ => ⟨S8x64, .f32⟩
  | .hbm, ⟨36, _⟩ => ⟨S8x64, .f32⟩
  | .hbm, ⟨37, _⟩ => ⟨S8x64, .f32⟩
  | .hbm, ⟨38, _⟩ => ⟨S_, .f32⟩
  | .hbm, ⟨39, _⟩ => ⟨S8x64, .f32⟩
  | .hbm, ⟨40, _⟩ => ⟨S8x64, .f32⟩
  | .hbm, ⟨41, _⟩ => ⟨S8x64, .f32⟩
  | .hbm, ⟨42, _⟩ => ⟨S_, .i32⟩
  | .hbm, ⟨43, _⟩ => ⟨S1000000, .i32⟩
  | .hbm, ⟨44, _⟩ => ⟨S1000000, .i1⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S1000000, .i32⟩
  | .hbm, ⟨49, _⟩ => ⟨S1000000x1, .i32⟩
  | .hbm, ⟨50, _⟩ => ⟨S1000000x64, .f32⟩
  | .hbm, ⟨51, _⟩ => ⟨S1000000x64, .f32⟩
  | .hbm, ⟨52, _⟩ => ⟨S1x64, .f32⟩
  | .hbm, ⟨53, _⟩ => ⟨S1000000x64, .f32⟩
  | .hbm, ⟨54, _⟩ => ⟨S1000000x64, .f32⟩
  | .hbm, ⟨55, _⟩ => ⟨S1x64, .f32⟩
  | .hbm, ⟨56, _⟩ => ⟨S1000000x64, .f32⟩
  | .hbm, ⟨57, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S8 : S_.BroadcastsInDim S8 (![] : Fin 0 → Fin S8.rank)
  bcast_S1000000_S1000000x1_0 : S1000000.BroadcastsInDim S1000000x1 (![0] : Fin 1 → Fin S1000000x1.rank)
  bcast_S8_S8x1_0 : S8.BroadcastsInDim S8x1 (![0] : Fin 1 → Fin S8x1.rank)
  bcast_S_S8x64 : S_.BroadcastsInDim S8x64 (![] : Fin 0 → Fin S8x64.rank)
  bcast_S8x1_S8x64_0_1 : S8x1.BroadcastsInDim S8x64 (![0, 1] : Fin 2 → Fin S8x64.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  scatter_S8_S1000000x1_S1000000_n_0_0_1_wf : ScatterDims.WF S8 S1000000x1 S1000000 [] [0] [0] 1
  scatter_S8x64_S1000000x1_S1000000x64_1_0_0_1_wf : ScatterDims.WF S8x64 S1000000x1 S1000000x64 [1] [0] [0] 1
  gather_S8x64_S1000000x1_S1000000x64_1_0_n_n_0_1_164_wf : GatherDims.WF S8x64 S1000000x1 S1000000x64 [1] [0] [] [0] [] 1 ![1, 64]

variable [Facts₀]

def scatter_S8_S1000000x1_S1000000_n_0_0_1 : ScatterDims S8 S1000000x1 S1000000 where
  updateWindowDims := []
  insertedWindowDims := [0]
  scatterDimsToOperandDims := [0]
  indexVectorDim := 1
  wf := scatter_S8_S1000000x1_S1000000_n_0_0_1_wf
def scatter_S8x64_S1000000x1_S1000000x64_1_0_0_1 : ScatterDims S8x64 S1000000x1 S1000000x64 where
  updateWindowDims := [1]
  insertedWindowDims := [0]
  scatterDimsToOperandDims := [0]
  indexVectorDim := 1
  wf := scatter_S8x64_S1000000x1_S1000000x64_1_0_0_1_wf
def gather_S8x64_S1000000x1_S1000000x64_1_0_n_n_0_1_164 : GatherDims S8x64 S1000000x1 S1000000x64 where
  offsetDims := [1]
  collapsedSliceDims := [0]
  operandBatchingDims := []
  startIndicesBatchingDims := []
  startIndexMap := [0]
  indexVectorDim := 1
  sliceSizes := ![1, 64]
  wf := gather_S8x64_S1000000x1_S1000000x64_1_0_n_n_0_1_164_wf

class Facts : Prop extends Facts₀ where

variable [Facts]
-- ==== Proof.Spec.lean ====
/-
  Per-segment layer normalisation over the extended reals, in the two arrangements the two programs compute.

  A table x of 1000000 rows by 64 channels, a segment id per row (a 32-bit word; segment b of 8 is the word b),
  a scale γ and a shift β per channel.  Row n WEIGHS 1 in segment b when its id is the word b and 0 otherwise
  (`wtv`), so a sum over a segment's rows is a sum over all rows of weight times term (`segSum`): the rows of no
  segment (an id outside 0..7) weigh 0 everywhere.  With N_b the number of rows of segment b and
  cnt_b = max(1, N_b):

    mean_b,c = (Σ_n w_nb x_nc) / cnt_b.

  FIRST ARRANGEMENT (`kOut`): the variance from the second moment,
    var_b,c = max((Σ_n w_nb x_nc²) / cnt_b − mean_b,c², 0),   inv_b,c = 1 / √(var_b,c + ε),
    out_n,c = (x_nc − Σ_b w_nb mean_b,c) · (Σ_b w_nb inv_b,c) · γ_c + β_c:
  the row's own segment is picked out of the 8-row tables by the weights.

  SECOND ARRANGEMENT (`rOut`, over a choice g of one segment per row): the variance from the centred rows,
    d_n,c = x_nc − mean_{g n},c,   var'_b,c = (Σ_n w_nb d_nc²) / cnt_b,
    out'_n,c = d_n,c / √(var'_{g n},c + ε) · γ_c + β_c.

  The two agree when every row's id IS the word of its chosen segment and x is finite (Σ (x − μ)² = Σ x² − N μ²
  needs real arithmetic): that is the algebra module's theorem; this module only states the functions.
-/
import Idealize.ShloMosaic.PureOps.Ideal

noncomputable section

open scoped BigOperators

namespace Cert.SegNorm

open Idealize.ShloMosaic

/-- Rows, channels, segments. -/
abbrev NR : Nat := 1000000
abbrev NC : Nat := 64
abbrev NB : Nat := 8

/-- The three float words both programs carry, read at the ideal values: +0.0, 1.0 and the f32 nearest 1e-5. -/
abbrev zero : EReal := Ideal.ofBits .f32 0x00000000#32
abbrev one : EReal := Ideal.ofBits .f32 0x3F800000#32
abbrev eps : EReal := Ideal.ofBits .f32 0x3727C5AC#32

/-- The weight of a row whose segment id is the word `s` in segment `b`: 1 when `s` is the word `b`, else 0. -/
def wtv (s : BitVec 32) (b : Fin NB) : EReal := if s = BitVec.ofNat 32 b.val then 1 else 0

section
variable (x : Fin NR → Fin NC → EReal) (sid : Fin NR → BitVec 32) (γ β : Fin NC → EReal)

/-- The sum of `f` over the rows of segment `b`, as a weighted sum over all rows. -/
def segSum (f : Fin NR → EReal) (b : Fin NB) : EReal := ∑ n : Fin NR, wtv (sid n) b * f n

/-- max(1, number of rows of segment b): the divisor of every segment average. -/
def cnt (b : Fin NB) : EReal := max one (segSum sid (fun _ => one) b)

/-- The segment's mean per channel. -/
def mean (b : Fin NB) (c : Fin NC) : EReal := Ideal.div (segSum sid (fun n => x n c) b) (cnt sid b)

/-- FIRST ARRANGEMENT: the variance as second moment minus squared mean, clamped at 0 from below. -/
def kVar (b : Fin NB) (c : Fin NC) : EReal :=
  max (Ideal.div (segSum sid (fun n => x n c * x n c) b) (cnt sid b) - mean x sid b c * mean x sid b c) zero

/-- The reciprocal standard deviation, ε under the root. -/
def kInv (b : Fin NB) (c : Fin NC) : EReal := Ideal.div one (Ideal.sqrt (kVar x sid b c + eps))

/-- The normalised row: the row's own mean and reciprocal deviation picked out of the tables by the weights. -/
def kOut (n : Fin NR) (c : Fin NC) : EReal :=
  ((x n c - ∑ b : Fin NB, wtv (sid n) b * mean x sid b c) * (∑ b : Fin NB, wtv (sid n) b * kInv x sid b c)) * γ c + β c

variable (g : Fin NR → Fin NB)

/-- SECOND ARRANGEMENT: the row centred at the mean of its chosen segment. -/
def rDiff (n : Fin NR) (c : Fin NC) : EReal := x n c - mean x sid (g n) c

/-- The variance as the segment average of the squared centred rows. -/
def rVar (b : Fin NB) (c : Fin NC) : EReal :=
  Ideal.div (segSum sid (fun n => rDiff x sid g n c * rDiff x sid g n c) b) (cnt sid b)

/-- The normalised row: the centred row over the deviation of its chosen segment. -/
def rOut (n : Fin NR) (c : Fin NC) : EReal :=
  Ideal.div (rDiff x sid g n c) (Ideal.sqrt (rVar x sid g (g n) c + eps)) * γ c + β c

end

end Cert.SegNorm

end
-- ==== Proof.KView.lean ====
/-
  The kernel's two input arrays as a region finds them, read as the specification's arguments: the feature table by
  (row, channel), and the segment ids — which the program keeps as a one-column matrix — by row.
-/
import proofs.«401720_j6047313953112_3_alg».proof.Proof.Gen.KernelIdeal.Frame
import proofs.«401720_j6047313953112_3_alg».proof.Proof.Spec
import Idealize.ShloMosaic.Lib.ValueIdx

noncomputable section

namespace Cert.KernelIdeal.View

open Cert.KernelIdeal Cert.SegNorm Idealize.ShloMosaic Idealize.ShloMosaic.TcCoe Idealize.ShloMosaic.ValueIdx Idealize.SL.Sem

/-- A core's buffer contents at a region's entry, at the ideal values. -/
abbrev Contents := (c : Dev nD) → (b : Ref sig .tc) → Buf (Elt Ideal) ((c : Thread nD τ).loc b)

/-- The feature table by (row, channel). -/
abbrev rows (V : Contents) (c : Dev nD) : Fin NR → Fin NC → EReal :=
  fun n ch => (V c main_arg0 : S1000000x64.Idx → EReal) (ix2 n ch)

/-- The segment id of a row: the one-column matrix at (row, 0). -/
abbrev ids (V : Contents) (c : Dev nD) : Fin NR → BitVec 32 :=
  fun n => (V c main_v0 : S1000000x1.Idx → BitVec 32) (ix2 n 0)

end Cert.KernelIdeal.View

end
-- ==== Proof.HostMid.lean ====
import proofs.«401720_j6047313953112_3_alg».proof.Proof.KView
import Idealize.ShloMosaic.Lib.Pipeline.Value
import Idealize.ShloMosaic.Lib.StableHlo.Run
import Idealize.ShloMosaic.Lib.ValueLayout

noncomputable section

open scoped BigOperators

namespace Cert.KernelIdeal.Mid

open Cert.KernelIdeal Cert.KernelIdeal.Gen Cert.KernelIdeal.View Cert.SegNorm
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- The first region finds the feature table as launched. -/
theorem entry0_arg0 (c : Dev nD) : V1 m ρ c main_arg0 = m ((c : Thread nD τ).loc main_arg0) := by
  show StableHlo.after hostOps0 (W0 m ρ c) (Proc.devRef .tc main_arg0) = _
  after_results

/-- The first region finds the ids as a one-column matrix: the launched vector broadcast along a new last axis. -/
theorem entry0_v0 (c : Dev nD) :
    V1 m ρ c main_v0 = broadcastInDim S1000000x1 ![0] bcast_S1000000_S1000000x1_0 (m ((c : Thread nD τ).loc main_arg1)) := by
  show StableHlo.after hostOps0 (W0 m ρ c) (Proc.devRef .tc main_v0) = _
  after_results

/-- After the first region its three result arrays hold what its write-backs left. -/
theorem exit0_sum (c : Dev nD) : W2 m ρ c (Proc.devRef .tc main_v1_0) = (dat0 (V1 m ρ) c).arrAt 2 cfg0.N := W2_arr m ρ c 2
theorem exit0_sumsq (c : Dev nD) : W2 m ρ c (Proc.devRef .tc main_v1_1) = (dat0 (V1 m ρ) c).arrAt 3 cfg0.N := W2_arr m ρ c 3
theorem exit0_count (c : Dev nD) : W2 m ρ c (Proc.devRef .tc main_v1_2) = (dat0 (V1 m ρ) c).arrAt 4 cfg0.N := W2_arr m ρ c 4

/-! ## Between the regions: the 8-row tables the host computes from the first region's sums -/

/-- A buffer no host operation between the regions writes is, at the second region's entry, what the first region
    left there. -/
theorem through (c : Dev nD) (b : Ref sig .tc)
    (h2 : ∀ op ∈ (hostOps1_2 : List (HloOp τ sig (Elt Ideal))), Proc.devRef .tc b ∉ op.writes)
    (h1 : ∀ op ∈ (hostOps1_1 : List (HloOp τ sig (Elt Ideal))), Proc.devRef .tc b ∉ op.writes)
    (h0 : ∀ op ∈ (hostOps1 : List (HloOp τ sig (Elt Ideal))), Proc.devRef .tc b ∉ op.writes) :
    W5 m ρ c (Proc.devRef .tc b) = W2 m ρ c (Proc.devRef .tc b) :=
  ((StableHlo.after_of_forall_not_mem (b := Proc.devRef .tc b) _ _ h2).trans
    (StableHlo.after_of_forall_not_mem (b := Proc.devRef .tc b) _ _ h1)).trans
    (StableHlo.after_of_forall_not_mem (b := Proc.devRef .tc b) _ _ h0)

/-- No host operation between the regions writes the buffer: each operation writes one buffer, another one. -/
local macro "not_written" : tactic =>
  `(tactic| (refine List.forall_iff_forall_mem.mp ?_
             simp only [hostOps0, hostOps1, hostOps1_1, hostOps1_2, List.Forall, StableHlo.nullary_writes, StableHlo.unary_writes,
               StableHlo.binary_writes, StableHlo.ternary_writes, Finset.mem_singleton]
             repeat' apply And.intro
             all_goals exact StableHlo.devRef_ne_of_ne (by decide)))

/-- The second region finds the feature table as launched: no host operation writes it, the first region only reads it. -/
theorem entry1_arg0 (c : Dev nD) : V5 m ρ c main_arg0 = m ((c : Thread nD τ).loc main_arg0) :=
  (through m ρ c main_arg0 (by not_written) (by not_written) (by not_written)).trans
    (((W2_arr m ρ c 0).trans (((dat0 (V1 m ρ) c).arrAt_in 0 rfl _).trans (A_eq0 (V1 m ρ) c 0))).trans (entry0_arg0 m ρ c))

/-- The second region finds the ids as the first did. -/
theorem entry1_v0 (c : Dev nD) : V5 m ρ c main_v0 = V1 m ρ c main_v0 :=
  (through m ρ c main_v0 (by not_written) (by not_written) (by not_written)).trans
    ((W2_arr m ρ c 1).trans (((dat0 (V1 m ρ) c).arrAt_in 1 rfl _).trans (A_eq0 (V1 m ρ) c 1)))

/-- The scale and the shift reach the second region as launched. -/
theorem entry1_arg2 (c : Dev nD) : V5 m ρ c main_arg2 = m ((c : Thread nD τ).loc main_arg2) :=
  (through m ρ c main_arg2 (by not_written) (by not_written) (by not_written)).trans
    ((W2_of_ne m ρ c main_arg2 (by decide)).trans
      (StableHlo.after_of_forall_not_mem (b := Proc.devRef .tc main_arg2) _ _ (by not_written)))
theorem entry1_arg3 (c : Dev nD) : V5 m ρ c main_arg3 = m ((c : Thread nD τ).loc main_arg3) :=
  (through m ρ c main_arg3 (by not_written) (by not_written) (by not_written)).trans
    ((W2_of_ne m ρ c main_arg3 (by decide)).trans
      (StableHlo.after_of_forall_not_mem (b := Proc.devRef .tc main_arg3) _ _ (by not_written)))

/-- The host's divisor table from a count column: max(1, count), the 1 first. -/
abbrev cntT (N : FVec Ideal S8x1 .f32) : FVec Ideal S8x1 .f32 :=
  maximumf (broadcastInDim S8x1 ![] bcast_S_S8x1 (id (constant (F := Ideal) S_ .f32 0x3F800000#32))) N

/-- The host's mean table from the sums and the counts. -/
abbrev meanT (S : FVec Ideal S8x64 .f32) (N : FVec Ideal S8x1 .f32) : FVec Ideal S8x64 .f32 :=
  Host.divf (F := Ideal) S (broadcastInDim S8x64 ![0, 1] bcast_S8x1_S8x64_0_1 (cntT N))

/-- The host's reciprocal-deviation table from the sums, the sums of squares and the counts. -/
abbrev invT (S Q : FVec Ideal S8x64 .f32) (N : FVec Ideal S8x1 .f32) : FVec Ideal S8x64 .f32 :=
  Host.divf (F := Ideal) (broadcastInDim S8x64 ![] bcast_S_S8x64 (constant (F := Ideal) S_ .f32 0x3F800000#32))
    (Host.sqrt (F := Ideal) (addf
      (maximumf (subf (Host.divf (F := Ideal) Q (broadcastInDim S8x64 ![0, 1] bcast_S8x1_S8x64_0_1 (cntT N))) (mulf (meanT S N) (meanT S N)))
        (broadcastInDim S8x64 ![] bcast_S_S8x64 (constant (F := Ideal) S_ .f32 0x00000000#32)))
      (broadcastInDim S8x64 ![] bcast_S_S8x64 (constant (F := Ideal) S_ .f32 0x3727C5AC#32))))

/-- The second region finds, as its mean table, the host's mean table of the first region's results. -/
theorem entry1_v4 (c : Dev nD) :
    V5 m ρ c main_v4 = meanT (W2 m ρ c (Proc.devRef .tc main_v1_0)) (W2 m ρ c (Proc.devRef .tc main_v1_2)) := by
  show StableHlo.after hostOps1_2 (StableHlo.after hostOps1_1 (StableHlo.after hostOps1 (W2 m ρ c))) (Proc.devRef .tc main_v4) = _
  after_results <;> rfl

/-- And as its reciprocal-deviation table the host's, of the same. -/
theorem entry1_v15 (c : Dev nD) :
    V5 m ρ c main_v15 = invT (W2 m ρ c (Proc.devRef .tc main_v1_0)) (W2 m ρ c (Proc.devRef .tc main_v1_1))
      (W2 m ρ c (Proc.devRef .tc main_v1_2)) := by
  show StableHlo.after hostOps1_2 (StableHlo.after hostOps1_1 (StableHlo.after hostOps1 (W2 m ρ c))) (Proc.devRef .tc main_v15) = _
  after_results <;> rfl

/-! ## The tables read at an entry -/

/-- The divisor for segment `b`: max(1, count). -/
theorem cntT_apply (N : FVec Ideal S8x1 .f32) (b : Fin NB) : cntT N (ix2 b 0) = max one (N (ix2 b 0)) := rfl

/-- A column of 8 broadcast along 64 channels, read at (b, ch): the column at (b, 0). -/
theorem bcast_col_apply (y : FVec Ideal S8x1 .f32) (b : Fin NB) (ch : Fin NC) :
    broadcastInDim S8x64 ![0, 1] bcast_S8x1_S8x64_0_1 y (ix2 b ch) = y (ix2 b 0) :=
  broadcastInDim_apply _ bcast_S8x1_S8x64_0_1 y (ix2 b ch) (ix2 b 0) (fun a => match a with
    | ⟨0, _⟩ => by show b.val = if (8 : Nat) = 1 then 0 else b.val; rw [if_neg (by decide)]
    | ⟨1, _⟩ => by show 0 = if (1 : Nat) = 1 then 0 else ch.val; rw [if_pos rfl])

/-- The mean table at (b, ch): the sum over the divisor. -/
theorem meanT_apply (S : FVec Ideal S8x64 .f32) (N : FVec Ideal S8x1 .f32) (b : Fin NB) (ch : Fin NC) :
    meanT S N (ix2 b ch) = Ideal.div (S (ix2 b ch)) (max one (N (ix2 b 0))) := by
  show Ideal.div (S (ix2 b ch)) (broadcastInDim S8x64 ![0, 1] bcast_S8x1_S8x64_0_1 (cntT N) (ix2 b ch)) = _
  rw [bcast_col_apply, cntT_apply]

/-- The reciprocal-deviation table at (b, ch): 1 over the root of (second moment − squared mean, clamped at 0) + ε. -/
theorem invT_apply (S Q : FVec Ideal S8x64 .f32) (N : FVec Ideal S8x1 .f32) (b : Fin NB) (ch : Fin NC) :
    invT S Q N (ix2 b ch)
      = Ideal.div one (Ideal.sqrt (max (Ideal.div (Q (ix2 b ch)) (max one (N (ix2 b 0)))
          - Ideal.div (S (ix2 b ch)) (max one (N (ix2 b 0))) * Ideal.div (S (ix2 b ch)) (max one (N (ix2 b 0)))) zero + eps)) := by
  show Ideal.div one (Ideal.sqrt (max (Ideal.div (Q (ix2 b ch)) (broadcastInDim S8x64 ![0, 1] bcast_S8x1_S8x64_0_1 (cntT N) (ix2 b ch))
          - meanT S N (ix2 b ch) * meanT S N (ix2 b ch)) zero + eps)) = _
  rw [bcast_col_apply, cntT_apply, meanT_apply]

end Cert.KernelIdeal.Mid

end
-- ==== Proof.Region0.lean ====
/-
  The first pass over the rows: per segment and channel the sum of the rows' entries, the sum of their squares, and
  per segment the number of rows.

  The grid has 200 points; point t holds rows 5000 t … 5000 t + 4999 of the feature table and of the segment ids. The
  three result blocks never move: they are set to zero at point 0, every point adds to them the product of the
  transposed membership matrix of its rows (entry (r, b) is 1 when row r's id is the word b, else 0) with its block
  of the table (of the squares; of a column of ones), and they are written out after the last point. So after point t
  the entry (b, ch) is the weighted sum over the rows below 5000 (t + 1), and after the last point the sum over all
  rows: the specification's segment sum.
-/
import proofs.«401720_j6047313953112_3_alg».proof.Proof.KView
import Idealize.ShloMosaic.Lib.Pipeline.Value
import Idealize.ShloMosaic.PureOps.Ideal.Laws
import Idealize.ShloMosaic.Lib.Tactic

noncomputable section

open scoped BigOperators

namespace Cert.KernelIdeal.Acc

open Cert.KernelIdeal Cert.KernelIdeal.Gen Cert.KernelIdeal.View Cert.SegNorm
open Idealize.ShloMosaic Idealize.ShloMosaic.TcCoe Idealize.ShloMosaic.ValueIdx Idealize.SL.Sem
open Idealize.ShloMosaic.Pipeline (Dat)

/-! ## A product contracting the first axis of both operands -/

section Product

/-- A product of a K × N by a K × M matrix whose dimension numbers contract axis 0 of both operands and carry no batch
    axis — the transposed left operand times the right — has at (n, j), over its contraction index, the sum over κ of
    l (κ, n) · r (κ, j). -/
theorem contr_sum_cols {K N M : Nat} {φ₁ φ₂ : FTy} (d : DotDims ⟨2, ![K, N]⟩ ⟨2, ![K, M]⟩ ⟨2, ![N, M]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, N]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 κ n) * r (ix2 κ j) := by
  obtain ⟨lc, rc, ln, rn, lb, rb, w⟩ := d
  simp only at hlc hrc hln hrn hlb hrb
  subst hlc hrc hln hrn hlb hrb
  rw [← Equiv.sum_comp (contrEquiv1 (⟨[0], [0], [1], [1], [], [], w⟩ : DotDims _ _ _) K rfl rfl).symm]
  refine Finset.sum_congr rfl fun c _ => ?_
  have c2 := contrEquiv1_symm_val (⟨[0], [0], [1], [1], [], [], w⟩ : DotDims ⟨2, ![K, N]⟩ ⟨2, ![K, M]⟩ ⟨2, ![N, M]⟩)
    K rfl rfl c
  have l2 : (⟨[0], [0], [1], [1], [], [], w⟩ : DotDims ⟨2, ![K, N]⟩ ⟨2, ![K, M]⟩ ⟨2, ![N, M]⟩).lhsIdx (ix2 n j)
      ((contrEquiv1 _ K rfl rfl).symm c) = ix2 c n := by
    funext a
    apply Fin.ext
    match a with
    | ⟨0, _⟩ => simp [DotDims.lhsIdx]; exact c2
    | ⟨1, _⟩ => simp [DotDims.lhsIdx]; rfl
  have r2 : (⟨[0], [0], [1], [1], [], [], w⟩ : DotDims ⟨2, ![K, N]⟩ ⟨2, ![K, M]⟩ ⟨2, ![N, M]⟩).rhsIdx (ix2 n j)
      ((contrEquiv1 _ K rfl rfl).symm c) = ix2 c j := by
    funext a
    apply Fin.ext
    match a with
    | ⟨0, _⟩ => simp [DotDims.rhsIdx]; exact c2
    | ⟨1, _⟩ => simp [DotDims.rhsIdx]; rfl
  rw [l2, r2]

/-- Such a product accumulated into the zero block, read at (n, j): Σ_κ l (κ, n) · r (κ, j). -/
theorem matmul_cols_zero_apply {K N M : Nat} {φ₁ φ₂ : FTy} (d : DotDims ⟨2, ![K, N]⟩ ⟨2, ![K, M]⟩ ⟨2, ![N, M]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision)
    (l : FVec Ideal ⟨2, ![K, N]⟩ φ₁) (r : FVec Ideal ⟨2, ![K, M]⟩ φ₂) (n : Fin N) (j : Fin M) :
    FloatOps.matmul d prec l r (constant (F := Ideal) ⟨2, ![N, M]⟩ .f32 0x00000000#32) (ix2 n j)
      = ∑ κ : Fin K, l (ix2 κ n) * r (ix2 κ j) := by
  rw [Ideal.matmul_constant_zero_apply]
  exact contr_sum_cols d hlc hrc hln hrn hlb hrb l r n j

end Product

/-! ## What each point leaves in the three blocks -/

section Pieces

variable {F : FTy → Type} [FloatOps F]

theorem hz : (![0, 0] : Fin 2 → Nat) = fun _ => 0 := funext fun a => by fin_cases a <;> rfl

/-- Point 0, the sums: the zero block plus the product of the point's blocks. -/
theorem sum_first (c : Dev nD) (i : grid0.Coords) (a1 : Memref sig .tc .vmem S5000x64 .f32) (h1 : a1.IsWhole)
    (a2 : Memref sig .tc .vmem S5000x1 .i32) (h2 : a2.IsWhole) (a3 : Memref sig .tc .vmem S8x64 .f32) (h3 : a3.IsWhole)
    (a4 : Memref sig .tc .vmem S8x64 .f32) (h4 : a4.IsWhole) (a5 : Memref sig .tc .vmem S8x1 .f32) (h5 : a5.IsWhole)
    (hc : cond0_0 i) (x0 : Vec F S5000x64 .f32) (x1 : Vec F S5000x1 .i32) :
    out0_A_2 c i a1 h1 a2 h2 a3 h3 a4 h4 a5 h5 hc x0 x1 = k0_pay5 x1 x0 (k0_pay1 (F := F)) := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_cons_unit_zero (S := S8x64) hz, View.readCov_unit_zero (S := S8x64) _ hz]
  simp only [View.readAt_eq_ld, h1.read_unread, h2.read_unread, View.ld_unit_zero (S := S5000x64) hz,
    View.ld_unit_zero (S := S5000x1) hz, shapeCast_self]

/-- Point 0, the sums of squares: the zero block plus the product with the squared block. -/
theorem sumsq_first (c : Dev nD) (i : grid0.Coords) (a1 : Memref sig .tc .vmem S5000x64 .f32) (h1 : a1.IsWhole)
    (a2 : Memref sig .tc .vmem S5000x1 .i32) (h2 : a2.IsWhole) (a3 : Memref sig .tc .vmem S8x64 .f32) (h3 : a3.IsWhole)
    (a4 : Memref sig .tc .vmem S8x64 .f32) (h4 : a4.IsWhole) (a5 : Memref sig .tc .vmem S8x1 .f32) (h5 : a5.IsWhole)
    (hc : cond0_0 i) (x0 : Vec F S5000x64 .f32) (x1 : Vec F S5000x1 .i32) :
    out0_A_3 c i a1 h1 a2 h2 a3 h3 a4 h4 a5 h5 hc x0 x1 = k0_pay6 x1 x0 (k0_pay2 (F := F)) := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S8x64) hz, View.readCov_unit_zero (S := S8x64) _ hz]
  simp only [View.readAt_eq_ld, h1.read_unread, h2.read_unread, View.ld_unit_zero (S := S5000x64) hz,
    View.ld_unit_zero (S := S5000x1) hz, shapeCast_self]

/-- Point 0, the counts: the zero block plus the product with the column of ones. -/
theorem count_first (c : Dev nD) (i : grid0.Coords) (a1 : Memref sig .tc .vmem S5000x64 .f32) (h1 : a1.IsWhole)
    (a2 : Memref sig .tc .vmem S5000x1 .i32) (h2 : a2.IsWhole) (a3 : Memref sig .tc .vmem S8x64 .f32) (h3 : a3.IsWhole)
    (a4 : Memref sig .tc .vmem S8x64 .f32) (h4 : a4.IsWhole) (a5 : Memref sig .tc .vmem S8x1 .f32) (h5 : a5.IsWhole)
    (hc : cond0_0 i) (x0 : Vec F S5000x64 .f32) (x1 : Vec F S5000x1 .i32) :
    out0_A_4 c i a1 h1 a2 h2 a3 h3 a4 h4 a5 h5 hc x0 x1 = k0_pay7 x1 (k0_pay3 (F := F)) := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S8x1) hz, View.readCov_unit_zero (S := S8x1) _ hz]
  simp only [View.readAt_eq_ld, h1.read_unread, h2.read_unread, View.ld_unit_zero (S := S5000x64) hz,
    View.ld_unit_zero (S := S5000x1) hz, shapeCast_self]

/-- A later point, the sums: what the block held plus the product of the point's blocks. -/
theorem sum_next (c : Dev nD) (i : grid0.Coords) (a1 : Memref sig .tc .vmem S5000x64 .f32) (h1 : a1.IsWhole)
    (a2 : Memref sig .tc .vmem S5000x1 .i32) (h2 : a2.IsWhole) (a3 : Memref sig .tc .vmem S8x64 .f32) (h3 : a3.IsWhole)
    (a4 : Memref sig .tc .vmem S8x64 .f32) (h4 : a4.IsWhole) (a5 : Memref sig .tc .vmem S8x1 .f32) (h5 : a5.IsWhole)
    (hc : ¬cond0_0 i) (x0 : Vec F S5000x64 .f32) (x1 : Vec F S5000x1 .i32) (xo2 : Vec F S8x64 .f32)
    (xo3 : Vec F S8x64 .f32) (xo4 : Vec F S8x1 .f32) :
    out0_B_2 c i a1 h1 a2 h2 a3 h3 a4 h4 a5 h5 hc x0 x1 xo2 xo3 xo4 = k0_pay5 x1 x0 xo2 := by
  unfold out0_B_2
  rw [View.read_writes_eq_canon _ _ _ (cover0_B_2 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h3.read_unread, h4.read_unread, h5.read_unread,
    View.ld_unit_zero (S := S5000x64) hz, View.ld_unit_zero (S := S5000x1) hz, View.ld_unit_zero (S := S8x64) hz,
    View.ld_unit_zero (S := S8x1) hz, shapeCast_self]

/-- A later point, the sums of squares: what the block held plus the product with the squared block. -/
theorem sumsq_next (c : Dev nD) (i : grid0.Coords) (a1 : Memref sig .tc .vmem S5000x64 .f32) (h1 : a1.IsWhole)
    (a2 : Memref sig .tc .vmem S5000x1 .i32) (h2 : a2.IsWhole) (a3 : Memref sig .tc .vmem S8x64 .f32) (h3 : a3.IsWhole)
    (a4 : Memref sig .tc .vmem S8x64 .f32) (h4 : a4.IsWhole) (a5 : Memref sig .tc .vmem S8x1 .f32) (h5 : a5.IsWhole)
    (hc : ¬cond0_0 i) (x0 : Vec F S5000x64 .f32) (x1 : Vec F S5000x1 .i32) (xo2 : Vec F S8x64 .f32)
    (xo3 : Vec F S8x64 .f32) (xo4 : Vec F S8x1 .f32) :
    out0_B_3 c i a1 h1 a2 h2 a3 h3 a4 h4 a5 h5 hc x0 x1 xo2 xo3 xo4 = k0_pay6 x1 x0 xo3 := by
  unfold out0_B_3
  rw [View.read_writes_eq_canon _ _ _ (cover0_B_3 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h3.read_unread, h4.read_unread, h5.read_unread,
    View.ld_unit_zero (S := S5000x64) hz, View.ld_unit_zero (S := S5000x1) hz, View.ld_unit_zero (S := S8x64) hz,
    View.ld_unit_zero (S := S8x1) hz, shapeCast_self]

/-- A later point, the counts: what the block held plus the product with the column of ones. -/
theorem count_next (c : Dev nD) (i : grid0.Coords) (a1 : Memref sig .tc .vmem S5000x64 .f32) (h1 : a1.IsWhole)
    (a2 : Memref sig .tc .vmem S5000x1 .i32) (h2 : a2.IsWhole) (a3 : Memref sig .tc .vmem S8x64 .f32) (h3 : a3.IsWhole)
    (a4 : Memref sig .tc .vmem S8x64 .f32) (h4 : a4.IsWhole) (a5 : Memref sig .tc .vmem S8x1 .f32) (h5 : a5.IsWhole)
    (hc : ¬cond0_0 i) (x0 : Vec F S5000x64 .f32) (x1 : Vec F S5000x1 .i32) (xo2 : Vec F S8x64 .f32)
    (xo3 : Vec F S8x64 .f32) (xo4 : Vec F S8x1 .f32) :
    out0_B_4 c i a1 h1 a2 h2 a3 h3 a4 h4 a5 h5 hc x0 x1 xo2 xo3 xo4 = k0_pay7 x1 xo4 := by
  unfold out0_B_4
  rw [View.read_writes_eq_canon _ _ _ (cover0_B_4 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h3.read_unread, h4.read_unread, h5.read_unread,
    View.ld_unit_zero (S := S5000x64) hz, View.ld_unit_zero (S := S5000x1) hz, View.ld_unit_zero (S := S8x64) hz,
    View.ld_unit_zero (S := S8x1) hz, shapeCast_self]

end Pieces

/-! ## The payloads at an index -/

section Payloads

/-- The membership matrix of a block of ids: entry (r, b) is the weight of row r's id in segment b. -/
theorem member_apply (v3 : Vec Ideal S5000x1 .i32) (r : Fin 5000) (b : Fin 8) :
    (k0_pay4 (F := Ideal) v3 : S5000x8.Idx → EReal) (ix2 r b) = wtv (v3 (ix2 r 0)) b := by
  unfold k0_pay4
  rw [sitofp_apply, extui_apply]
  unfold cmpi
  rw [shapeCast_shapeCast, iota_single_apply,
    broadcastTo_apply v3 _ (ix2 r b) (ix2 r 0) (fun a => by match a with | ⟨0, _⟩ => rfl | ⟨1, _⟩ => rfl)]
  show (((BitVec.setWidth 32 (BitVec.ofBool (v3 (ix2 r 0) == BitVec.ofNat 32 b.val))).toInt : ℝ) : EReal) = _
  unfold wtv
  by_cases h : v3 (ix2 r 0) = BitVec.ofNat 32 b.val
  · rw [if_pos h, h, beq_self_eq_true, show (BitVec.setWidth 32 (BitVec.ofBool true)).toInt = 1 from by decide]
    norm_num
  · rw [if_neg h, beq_eq_false_iff_ne.mpr h, show (BitVec.setWidth 32 (BitVec.ofBool false)).toInt = 0 from by decide]
    norm_num

/-- The sums' update at (b, ch): what the block held plus Σ_r weight (r, b) · x (r, ch) over the point's rows. -/
theorem sum_pay_apply (v3 : Vec Ideal S5000x1 .i32) (v11 : Vec Ideal S5000x64 .f32) (v12 : Vec Ideal S8x64 .f32)
    (b : Fin 8) (ch : Fin 64) :
    (k0_pay5 (F := Ideal) v3 v11 v12 : S8x64.Idx → EReal) (ix2 b ch)
      = (v12 : S8x64.Idx → EReal) (ix2 b ch)
        + ∑ r : Fin 5000, wtv (v3 (ix2 r 0)) b * (v11 : S5000x64.Idx → EReal) (ix2 r ch) := by
  unfold k0_pay5
  rw [addf_apply, shapeCast_self]
  refine congrArg (_ + ·) ?_
  refine (matmul_cols_zero_apply dot_S5000x8_S5000x64_S8x64_0_0_1_1_n_n rfl rfl rfl rfl rfl rfl (some .fp32)
    (k0_pay4 (F := Ideal) v3) v11 b ch).trans ?_
  exact Finset.sum_congr rfl fun r _ => by rw [member_apply]

/-- The sums of squares' update at (b, ch): what the block held plus Σ_r weight (r, b) · x (r, ch)² . -/
theorem sumsq_pay_apply (v3 : Vec Ideal S5000x1 .i32) (v11 : Vec Ideal S5000x64 .f32) (v17 : Vec Ideal S8x64 .f32)
    (b : Fin 8) (ch : Fin 64) :
    (k0_pay6 (F := Ideal) v3 v11 v17 : S8x64.Idx → EReal) (ix2 b ch)
      = (v17 : S8x64.Idx → EReal) (ix2 b ch)
        + ∑ r : Fin 5000, wtv (v3 (ix2 r 0)) b
            * ((v11 : S5000x64.Idx → EReal) (ix2 r ch) * (v11 : S5000x64.Idx → EReal) (ix2 r ch)) := by
  unfold k0_pay6
  rw [addf_apply, shapeCast_self]
  refine congrArg (_ + ·) ?_
  refine (matmul_cols_zero_apply dot_S5000x8_S5000x64_S8x64_0_0_1_1_n_n rfl rfl rfl rfl rfl rfl (some .fp32)
    (k0_pay4 (F := Ideal) v3) (mulf v11 v11) b ch).trans ?_
  exact Finset.sum_congr rfl fun r _ => by rw [member_apply, mulf_apply]

/-- The counts' update at (b, 0): what the block held plus Σ_r weight (r, b) · 1. -/
theorem count_pay_apply (v3 : Vec Ideal S5000x1 .i32) (v24 : Vec Ideal S8x1 .f32) (b : Fin 8) :
    (k0_pay7 (F := Ideal) v3 v24 : S8x1.Idx → EReal) (ix2 b 0)
      = (v24 : S8x1.Idx → EReal) (ix2 b 0) + ∑ r : Fin 5000, wtv (v3 (ix2 r 0)) b * one := by
  unfold k0_pay7
  rw [addf_apply, shapeCast_self]
  refine congrArg (_ + ·) ?_
  refine (matmul_cols_zero_apply dot_S5000x8_S5000x1_S8x1_0_0_1_1_n_n rfl rfl rfl rfl rfl rfl (some .fp32)
    (k0_pay4 (F := Ideal) v3) (broadcast S5000x1 (Scalar.ofBits (F := Ideal) .f32 0x3F800000#32)) b 0).trans ?_
  exact Finset.sum_congr rfl fun r _ => by rw [member_apply, broadcast_apply]; rfl

/-- The three zero blocks read 0 everywhere. -/
theorem zero64_apply (j : S8x64.Idx) : (k0_pay1 (F := Ideal) : S8x64.Idx → EReal) j = 0 := by
  unfold k0_pay1; rw [broadcast_apply]; exact Ideal.ofBits_zero_f32
theorem zero64'_apply (j : S8x64.Idx) : (k0_pay2 (F := Ideal) : S8x64.Idx → EReal) j = 0 := by
  unfold k0_pay2; rw [broadcast_apply]; exact Ideal.ofBits_zero_f32
theorem zero1_apply (j : S8x1.Idx) : (k0_pay3 (F := Ideal) : S8x1.Idx → EReal) j = 0 := by
  unfold k0_pay3; rw [broadcast_apply]; exact Ideal.ofBits_zero_f32

end Payloads

/-! ## A point's blocks are rows of the arrays -/

section Blocks

variable (V : Contents)

/-- Point t's block of the feature table and of the ids, at their literal types. -/
abbrev xblk (c : Dev nD) (t : Fin cfg0.N) : Vec Ideal S5000x64 .f32 := iblk0 V c 0 t
abbrev idblk (c : Dev nD) (t : Fin cfg0.N) : Vec Ideal S5000x1 .i32 := iblk0 V c 1 t

/-- Both input windows sit at block (t, 0) at point t. -/
theorem idx_facts0 : ∀ t : Fin cfg0.N, win0_0.index t 0 = t.val ∧ win0_0.index t 1 = 0
    ∧ win0_1.index t 0 = t.val ∧ win0_1.index t 1 = 0 :=
  (by decide +kernel : ∀ t : Fin grid0.N, win0_0.index t 0 = t.val ∧ win0_0.index t 1 = 0
    ∧ win0_1.index t 0 = t.val ∧ win0_1.index t 1 = 0)

/-- Row r of point t's block of the table is row 5000 t + r of the table. -/
theorem xblk_apply (c : Dev nD) (t : Fin cfg0.N) (r : Fin 5000) (ch : Fin 64) (n : Fin NR)
    (hn : n.val = 5000 * t.val + r.val) :
    (xblk V c t : S5000x64.Idx → EReal) (ix2 r ch) = rows V c n ch := by
  obtain ⟨h0, h1, -, -⟩ := idx_facts0 t
  unfold xblk iblk0
  rw [View.read_apply]
  show (V c main_arg0 : S1000000x64.Idx → EReal) (((cfg0.win 0).blk t).view.emb (ix2 r ch))
    = (V c main_arg0 : S1000000x64.Idx → EReal) (ix2 n ch)
  congr 1
  funext a
  apply Fin.ext
  match a with
  | ⟨0, _⟩ => show win0_0.index t 0 * 5000 + 1 * r.val = n.val; rw [h0]; omega
  | ⟨1, _⟩ => show win0_0.index t 1 * 64 + 1 * ch.val = ch.val; rw [h1]; omega

/-- Row r of point t's block of the ids is the id of row 5000 t + r. -/
theorem idblk_apply (c : Dev nD) (t : Fin cfg0.N) (r : Fin 5000) (n : Fin NR)
    (hn : n.val = 5000 * t.val + r.val) :
    (idblk V c t : S5000x1.Idx → BitVec 32) (ix2 r 0) = ids V c n := by
  obtain ⟨-, -, h0, h1⟩ := idx_facts0 t
  unfold idblk iblk0
  rw [View.read_apply]
  show (V c main_v0 : S1000000x1.Idx → BitVec 32) (((cfg0.win 1).blk t).view.emb (ix2 r 0))
    = (V c main_v0 : S1000000x1.Idx → BitVec 32) (ix2 n 0)
  congr 1
  funext a
  apply Fin.ext
  match a with
  | ⟨0, _⟩ => show win0_1.index t 0 * 5000 + 1 * r.val = n.val; rw [h0]; omega
  | ⟨1, _⟩ => show win0_1.index t 1 * 1 + 1 * 0 = 0; rw [h1]

end Blocks

/-! ## The rows in blocks of 5000 -/

section Sums

/-- The part of a sum over the rows that block k carries: rows 5000 k … 5000 k + 4999 (nothing past the last block). -/
def blockSum (g : Fin NR → EReal) (k : ℕ) : EReal :=
  if h : k < 200 then ∑ r : Fin 5000, g ⟨5000 * k + r.val, by have := r.isLt; show _ < 1000000; omega⟩ else 0

/-- The sum over the rows of blocks 0 … k. -/
def runSum (g : Fin NR → EReal) (k : ℕ) : EReal := ∑ k' ∈ Finset.range (k + 1), blockSum g k'

theorem runSum_zero (g : Fin NR → EReal) : runSum g 0 = blockSum g 0 := by
  unfold runSum; rw [Finset.sum_range_one]

theorem runSum_succ (g : Fin NR → EReal) (k : ℕ) : runSum g (k + 1) = runSum g k + blockSum g (k + 1) := by
  unfold runSum; rw [Finset.sum_range_succ]

/-- Row r of block k. -/
def rowAt (k : ℕ) (hk : k < 200) (r : Fin 5000) : Fin NR :=
  ⟨5000 * k + r.val, by have := r.isLt; show _ < 1000000; omega⟩

/-- Block k's part, summed over the rows of the block. -/
theorem blockSum_eq (g : Fin NR → EReal) (k : ℕ) (h : k < 200) (row : Fin 5000 → Fin NR)
    (hrow : ∀ r, (row r).val = 5000 * k + r.val) : blockSum g k = ∑ r : Fin 5000, g (row r) := by
  unfold blockSum
  rw [dif_pos h]
  exact Finset.sum_congr rfl fun r _ => congrArg g (Fin.ext (hrow r).symm)

/-- All 200 blocks together are all the rows. -/
theorem runSum_last (g : Fin NR → EReal) : runSum g 199 = ∑ n : Fin NR, g n := by
  unfold runSum
  rw [← Fin.sum_univ_eq_sum_range (fun k => blockSum g k) (199 + 1)]
  have e : ∀ t : Fin (199 + 1), blockSum g t.val
      = ∑ r : Fin 5000, g (finProdFinEquiv ((t, r) : Fin 200 × Fin 5000)) := fun t =>
    blockSum_eq g t.val t.isLt (fun r => finProdFinEquiv ((t, r) : Fin 200 × Fin 5000)) fun r => by
      show r.val + 5000 * t.val = 5000 * t.val + r.val
      omega
  rw [Finset.sum_congr rfl fun t _ => e t]
  exact (Fintype.sum_prod_type' (fun (t : Fin 200) (r : Fin 5000) => g (finProdFinEquiv (t, r)))).symm.trans
    (Equiv.sum_comp (finProdFinEquiv : Fin 200 × Fin 5000 ≃ Fin (200 * 5000)) g)

end Sums

/-! ## What the three blocks hold after each point -/

section Invariant

variable (V : Contents)

/-- Block t's share of a weighted sum over the rows, read off point t's blocks: `fb r` is the block's entry for row r,
    `f n` the array's for row n. -/
theorem block_share (c : Dev nD) (t : Fin cfg0.N) (b : Fin 8) (f : Fin NR → EReal) (fb : Fin 5000 → EReal)
    (hf : ∀ (r : Fin 5000) (n : Fin NR), n.val = 5000 * t.val + r.val → fb r = f n) :
    ∑ r : Fin 5000, wtv ((idblk V c t : S5000x1.Idx → BitVec 32) (ix2 r 0)) b * fb r
      = blockSum (fun n => wtv (ids V c n) b * f n) t.val := by
  have hN : t.val < 200 := lt_of_lt_of_eq t.isLt (show cfg0.N = 200 from N_0)
  rw [blockSum_eq _ t.val hN (rowAt t.val hN) (fun r => rfl)]
  exact Finset.sum_congr rfl fun r _ => by
    rw [idblk_apply V c t r (rowAt t.val hN r) rfl, hf r (rowAt t.val hN r) rfl]

/-- After point k the sums, the sums of squares and the counts hold the weighted sums over the rows of blocks 0 … k. -/
theorem outs_inv (c : Dev nD) : ∀ (k : ℕ) (h : k < cfg0.N),
    (∀ (b : Fin 8) (ch : Fin 64), ((outsAt0 V c k h).1 : S8x64.Idx → EReal) (ix2 b ch)
        = runSum (fun n => wtv (ids V c n) b * rows V c n ch) k)
    ∧ (∀ (b : Fin 8) (ch : Fin 64), ((outsAt0 V c k h).2.1 : S8x64.Idx → EReal) (ix2 b ch)
        = runSum (fun n => wtv (ids V c n) b * (rows V c n ch * rows V c n ch)) k)
    ∧ (∀ b : Fin 8, ((outsAt0 V c k h).2.2 : S8x1.Idx → EReal) (ix2 b 0)
        = runSum (fun n => wtv (ids V c n) b * one) k)
  | 0, h => by
    rw [outsAt0_A V c ⟨0, h⟩ rfl]
    dsimp only
    refine ⟨fun b ch => ?_, fun b ch => ?_, fun b => ?_⟩
    · refine (congrFun (sum_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr (Nat.zero_mod _))
        (xblk V c ⟨0, h⟩) (idblk V c ⟨0, h⟩)) (ix2 b ch)).trans ?_
      refine (sum_pay_apply (idblk V c ⟨0, h⟩) (xblk V c ⟨0, h⟩) (k0_pay1 (F := Ideal)) b ch).trans ?_
      rw [zero64_apply, zero_add, runSum_zero]
      exact block_share V c ⟨0, h⟩ b _ _ fun r n hn => xblk_apply V c ⟨0, h⟩ r ch n hn
    · refine (congrFun (sumsq_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr (Nat.zero_mod _))
        (xblk V c ⟨0, h⟩) (idblk V c ⟨0, h⟩)) (ix2 b ch)).trans ?_
      refine (sumsq_pay_apply (idblk V c ⟨0, h⟩) (xblk V c ⟨0, h⟩) (k0_pay2 (F := Ideal)) b ch).trans ?_
      rw [zero64'_apply, zero_add, runSum_zero]
      exact block_share V c ⟨0, h⟩ b _ _ fun r n hn => by rw [xblk_apply V c ⟨0, h⟩ r ch n hn]
    · refine (congrFun (count_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr (Nat.zero_mod _))
        (xblk V c ⟨0, h⟩) (idblk V c ⟨0, h⟩)) (ix2 b 0)).trans ?_
      refine (count_pay_apply (idblk V c ⟨0, h⟩) (k0_pay3 (F := Ideal)) b).trans ?_
      rw [zero1_apply, zero_add, runSum_zero]
      exact block_share V c ⟨0, h⟩ b _ _ fun r n hn => rfl
  | k + 1, h => by
    have hN : cfg0.N = 200 := N_0
    have hB : ¬(⟨k + 1, h⟩ : Fin cfg0.N).val % 200 = 0 := by dsimp only; omega
    obtain ⟨i2, i3, i4⟩ := outs_inv c k (Nat.lt_of_succ_lt h)
    rw [outsAt0_B V c ⟨k + 1, h⟩ hB]
    dsimp only
    refine ⟨fun b ch => ?_, fun b ch => ?_, fun b => ?_⟩
    · refine (congrFun (sum_next (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) (ms0_4 ⟨k + 1, h⟩) (hs0_4 ⟨k + 1, h⟩) (fun hh => hB ((hcond0_0 ⟨k + 1, h⟩).mp hh))
        (xblk V c ⟨k + 1, h⟩) (idblk V c ⟨k + 1, h⟩) (outsAt0 V c k (Nat.lt_of_succ_lt h)).1 (outsAt0 V c k (Nat.lt_of_succ_lt h)).2.1 (outsAt0 V c k (Nat.lt_of_succ_lt h)).2.2) (ix2 b ch)).trans ?_
      refine (sum_pay_apply (idblk V c ⟨k + 1, h⟩) (xblk V c ⟨k + 1, h⟩) (outsAt0 V c k (Nat.lt_of_succ_lt h)).1 b ch).trans ?_
      rw [i2 b ch, runSum_succ]
      exact congrArg (_ + ·) (block_share V c ⟨k + 1, h⟩ b _ _ fun r n hn => xblk_apply V c ⟨k + 1, h⟩ r ch n hn)
    · refine (congrFun (sumsq_next (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) (ms0_4 ⟨k + 1, h⟩) (hs0_4 ⟨k + 1, h⟩) (fun hh => hB ((hcond0_0 ⟨k + 1, h⟩).mp hh))
        (xblk V c ⟨k + 1, h⟩) (idblk V c ⟨k + 1, h⟩) (outsAt0 V c k (Nat.lt_of_succ_lt h)).1 (outsAt0 V c k (Nat.lt_of_succ_lt h)).2.1 (outsAt0 V c k (Nat.lt_of_succ_lt h)).2.2) (ix2 b ch)).trans ?_
      refine (sumsq_pay_apply (idblk V c ⟨k + 1, h⟩) (xblk V c ⟨k + 1, h⟩) (outsAt0 V c k (Nat.lt_of_succ_lt h)).2.1 b ch).trans ?_
      rw [i3 b ch, runSum_succ]
      exact congrArg (_ + ·) (block_share V c ⟨k + 1, h⟩ b _ _ fun r n hn => by rw [xblk_apply V c ⟨k + 1, h⟩ r ch n hn])
    · refine (congrFun (count_next (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) (ms0_4 ⟨k + 1, h⟩) (hs0_4 ⟨k + 1, h⟩) (fun hh => hB ((hcond0_0 ⟨k + 1, h⟩).mp hh))
        (xblk V c ⟨k + 1, h⟩) (idblk V c ⟨k + 1, h⟩) (outsAt0 V c k (Nat.lt_of_succ_lt h)).1 (outsAt0 V c k (Nat.lt_of_succ_lt h)).2.1 (outsAt0 V c k (Nat.lt_of_succ_lt h)).2.2) (ix2 b 0)).trans ?_
      refine (count_pay_apply (idblk V c ⟨k + 1, h⟩) (outsAt0 V c k (Nat.lt_of_succ_lt h)).2.2 b).trans ?_
      rw [i4 b, runSum_succ]
      exact congrArg (_ + ·) (block_share V c ⟨k + 1, h⟩ b _ _ fun r n hn => rfl)

end Invariant

/-! ## The arrays after the run -/

section Final

variable (V : Contents)

/-- The three result windows sit at block (0, 0) at every point, and their blocks are the whole arrays. -/
theorem out_facts0 : ∀ t : Fin cfg0.N,
    (win0_2.index t 0 = 0 ∧ win0_2.index t 1 = 0 ∧ win0_2.xsize (grid0.coords t) 0 = 8
      ∧ win0_2.xsize (grid0.coords t) 1 = 64)
    ∧ (win0_3.index t 0 = 0 ∧ win0_3.index t 1 = 0 ∧ win0_3.xsize (grid0.coords t) 0 = 8
      ∧ win0_3.xsize (grid0.coords t) 1 = 64)
    ∧ (win0_4.index t 0 = 0 ∧ win0_4.index t 1 = 0 ∧ win0_4.xsize (grid0.coords t) 0 = 8
      ∧ win0_4.xsize (grid0.coords t) 1 = 1) :=
  (by decide +kernel : ∀ t : Fin grid0.N,
    (win0_2.index t 0 = 0 ∧ win0_2.index t 1 = 0 ∧ win0_2.xsize (grid0.coords t) 0 = 8
      ∧ win0_2.xsize (grid0.coords t) 1 = 64)
    ∧ (win0_3.index t 0 = 0 ∧ win0_3.index t 1 = 0 ∧ win0_3.xsize (grid0.coords t) 0 = 8
      ∧ win0_3.xsize (grid0.coords t) 1 = 64)
    ∧ (win0_4.index t 0 = 0 ∧ win0_4.index t 1 = 0 ∧ win0_4.xsize (grid0.coords t) 0 = 8
      ∧ win0_4.xsize (grid0.coords t) 1 = 1))

/-- The grid has a point 199, the last. -/
theorem exists_last : ∃ tl : Fin cfg0.N, tl.val = 199 :=
  ⟨⟨199, by rw [show cfg0.N = 200 from N_0]; decide⟩, rfl⟩

/-- The one write-back of window 2, at the last point, writes what that point leaves: block (0, 0) of the array read
    through zero offsets is the array. -/
theorem flushed2_eq (c : Dev nD) (tl : Fin cfg0.N) (htl : tl.val = 199) (t : Fin cfg0.N)
    (hf : (cfg0.win 2).flush t = true) :
    (dat0 V c).flushed 2 t
      = ((cfg0.win 2).blk t).view.read (Elt Ideal) (outsAt0 V c tl.val tl.isLt).1 := by
  have hN : cfg0.N = 200 := N_0
  have h3 : t.val = 199 := by have := (flush0_2 t).mp hf; have := t.isLt; omega
  obtain rfl : t = tl := Fin.ext (h3.trans htl.symm)
  obtain ⟨i0, i1, -, -⟩ := (out_facts0 t).1
  show (cfg0.win 2).cut (grid0.coords t) ((dat0 V c).after 2 t) = _
  rw [after0_2]
  have hz' : (fun a => win0_2.index t a * main_v1_0.ty.shape.size a) = fun _ => 0 :=
    funext fun a => by
      match a with
      | ⟨0, _⟩ => show win0_2.index t 0 * _ = 0; rw [i0, Nat.zero_mul]
      | ⟨1, _⟩ => show win0_2.index t 1 * _ = 0; rw [i1, Nat.zero_mul]
  exact (Memref.read_access_unit_zero (Elt Ideal) main_v1_0 hz' (fun a => by rw [congrFun hz' a]; simp)
    (outsAt0 V c t.val t.isLt).1).symm

/-- So the array of window 2 ends holding what the last point leaves. -/
theorem final2 (c : Dev nD) (tl : Fin cfg0.N) (htl : tl.val = 199) :
    (dat0 V c).arrAt 2 cfg0.N = (outsAt0 V c tl.val tl.isLt).1 :=
  (dat0 V c).arrAt_eq_of_cover 2 (outsAt0 V c tl.val tl.isLt).1 (flushed2_eq V c tl htl) fun i =>
    ⟨tl, (flush0_2 tl).mpr (by rw [htl]), by
      obtain ⟨i0, i1, x0, x1⟩ := (out_facts0 tl).1
      show i ∈ ((View.whole main_v1_0).slice (win0_2.rect tl)).set
      rw [View.set_slice_whole, Rect.mem_set_unit]
      intro a
      have h0 : (i 0 : Nat) < 8 := (i 0).isLt
      have h1 : (i 1 : Nat) < 64 := (i 1).isLt
      match a with
      | ⟨0, _⟩ =>
        show win0_2.index tl 0 * win0_2.size 0 ≤ (i 0 : Nat)
          ∧ (i 0 : Nat) < win0_2.index tl 0 * win0_2.size 0 + win0_2.xsize (grid0.coords tl) 0
        rw [i0, Nat.zero_mul, x0]
        omega
      | ⟨1, _⟩ =>
        show win0_2.index tl 1 * win0_2.size 1 ≤ (i 1 : Nat)
          ∧ (i 1 : Nat) < win0_2.index tl 1 * win0_2.size 1 + win0_2.xsize (grid0.coords tl) 1
        rw [i1, Nat.zero_mul, x1]
        omega⟩

/-- The one write-back of window 3, at the last point, writes what that point leaves: block (0, 0) of the array read
    through zero offsets is the array. -/
theorem flushed3_eq (c : Dev nD) (tl : Fin cfg0.N) (htl : tl.val = 199) (t : Fin cfg0.N)
    (hf : (cfg0.win 3).flush t = true) :
    (dat0 V c).flushed 3 t
      = ((cfg0.win 3).blk t).view.read (Elt Ideal) (outsAt0 V c tl.val tl.isLt).2.1 := by
  have hN : cfg0.N = 200 := N_0
  have h3 : t.val = 199 := by have := (flush0_3 t).mp hf; have := t.isLt; omega
  obtain rfl : t = tl := Fin.ext (h3.trans htl.symm)
  obtain ⟨i0, i1, -, -⟩ := (out_facts0 t).2.1
  show (cfg0.win 3).cut (grid0.coords t) ((dat0 V c).after 3 t) = _
  rw [after0_3]
  have hz' : (fun a => win0_3.index t a * main_v1_1.ty.shape.size a) = fun _ => 0 :=
    funext fun a => by
      match a with
      | ⟨0, _⟩ => show win0_3.index t 0 * _ = 0; rw [i0, Nat.zero_mul]
      | ⟨1, _⟩ => show win0_3.index t 1 * _ = 0; rw [i1, Nat.zero_mul]
  exact (Memref.read_access_unit_zero (Elt Ideal) main_v1_1 hz' (fun a => by rw [congrFun hz' a]; simp)
    (outsAt0 V c t.val t.isLt).2.1).symm

/-- So the array of window 3 ends holding what the last point leaves. -/
theorem final3 (c : Dev nD) (tl : Fin cfg0.N) (htl : tl.val = 199) :
    (dat0 V c).arrAt 3 cfg0.N = (outsAt0 V c tl.val tl.isLt).2.1 :=
  (dat0 V c).arrAt_eq_of_cover 3 (outsAt0 V c tl.val tl.isLt).2.1 (flushed3_eq V c tl htl) fun i =>
    ⟨tl, (flush0_3 tl).mpr (by rw [htl]), by
      obtain ⟨i0, i1, x0, x1⟩ := (out_facts0 tl).2.1
      show i ∈ ((View.whole main_v1_1).slice (win0_3.rect tl)).set
      rw [View.set_slice_whole, Rect.mem_set_unit]
      intro a
      have h0 : (i 0 : Nat) < 8 := (i 0).isLt
      have h1 : (i 1 : Nat) < 64 := (i 1).isLt
      match a with
      | ⟨0, _⟩ =>
        show win0_3.index tl 0 * win0_3.size 0 ≤ (i 0 : Nat)
          ∧ (i 0 : Nat) < win0_3.index tl 0 * win0_3.size 0 + win0_3.xsize (grid0.coords tl) 0
        rw [i0, Nat.zero_mul, x0]
        omega
      | ⟨1, _⟩ =>
        show win0_3.index tl 1 * win0_3.size 1 ≤ (i 1 : Nat)
          ∧ (i 1 : Nat) < win0_3.index tl 1 * win0_3.size 1 + win0_3.xsize (grid0.coords tl) 1
        rw [i1, Nat.zero_mul, x1]
        omega⟩

/-- The one write-back of window 4, at the last point, writes what that point leaves: block (0, 0) of the array read
    through zero offsets is the array. -/
theorem flushed4_eq (c : Dev nD) (tl : Fin cfg0.N) (htl : tl.val = 199) (t : Fin cfg0.N)
    (hf : (cfg0.win 4).flush t = true) :
    (dat0 V c).flushed 4 t
      = ((cfg0.win 4).blk t).view.read (Elt Ideal) (outsAt0 V c tl.val tl.isLt).2.2 := by
  have hN : cfg0.N = 200 := N_0
  have h3 : t.val = 199 := by have := (flush0_4 t).mp hf; have := t.isLt; omega
  obtain rfl : t = tl := Fin.ext (h3.trans htl.symm)
  obtain ⟨i0, i1, -, -⟩ := (out_facts0 t).2.2
  show (cfg0.win 4).cut (grid0.coords t) ((dat0 V c).after 4 t) = _
  rw [after0_4]
  have hz' : (fun a => win0_4.index t a * main_v1_2.ty.shape.size a) = fun _ => 0 :=
    funext fun a => by
      match a with
      | ⟨0, _⟩ => show win0_4.index t 0 * _ = 0; rw [i0, Nat.zero_mul]
      | ⟨1, _⟩ => show win0_4.index t 1 * _ = 0; rw [i1, Nat.zero_mul]
  exact (Memref.read_access_unit_zero (Elt Ideal) main_v1_2 hz' (fun a => by rw [congrFun hz' a]; simp)
    (outsAt0 V c t.val t.isLt).2.2).symm

/-- So the array of window 4 ends holding what the last point leaves. -/
theorem final4 (c : Dev nD) (tl : Fin cfg0.N) (htl : tl.val = 199) :
    (dat0 V c).arrAt 4 cfg0.N = (outsAt0 V c tl.val tl.isLt).2.2 :=
  (dat0 V c).arrAt_eq_of_cover 4 (outsAt0 V c tl.val tl.isLt).2.2 (flushed4_eq V c tl htl) fun i =>
    ⟨tl, (flush0_4 tl).mpr (by rw [htl]), by
      obtain ⟨i0, i1, x0, x1⟩ := (out_facts0 tl).2.2
      show i ∈ ((View.whole main_v1_2).slice (win0_4.rect tl)).set
      rw [View.set_slice_whole, Rect.mem_set_unit]
      intro a
      have h0 : (i 0 : Nat) < 8 := (i 0).isLt
      have h1 : (i 1 : Nat) < 1 := (i 1).isLt
      match a with
      | ⟨0, _⟩ =>
        show win0_4.index tl 0 * win0_4.size 0 ≤ (i 0 : Nat)
          ∧ (i 0 : Nat) < win0_4.index tl 0 * win0_4.size 0 + win0_4.xsize (grid0.coords tl) 0
        rw [i0, Nat.zero_mul, x0]
        omega
      | ⟨1, _⟩ =>
        show win0_4.index tl 1 * win0_4.size 1 ≤ (i 1 : Nat)
          ∧ (i 1 : Nat) < win0_4.index tl 1 * win0_4.size 1 + win0_4.xsize (grid0.coords tl) 1
        rw [i1, Nat.zero_mul, x1]
        omega⟩

end Final

variable (V : Contents)

theorem sum_final (c : Dev nD) (b : Fin NB) (ch : Fin NC) :
    ((dat0 V c).arrAt 2 cfg0.N : S8x64.Idx → EReal) (ix2 b ch) = segSum (ids V c) (fun n => rows V c n ch) b := by
  obtain ⟨tl, htl⟩ := exists_last
  rw [final2 V c tl htl]
  refine ((outs_inv V c tl.val tl.isLt).1 b ch).trans ?_
  rw [htl]
  exact runSum_last _

theorem sumsq_final (c : Dev nD) (b : Fin NB) (ch : Fin NC) :
    ((dat0 V c).arrAt 3 cfg0.N : S8x64.Idx → EReal) (ix2 b ch)
      = segSum (ids V c) (fun n => rows V c n ch * rows V c n ch) b := by
  obtain ⟨tl, htl⟩ := exists_last
  rw [final3 V c tl htl]
  refine ((outs_inv V c tl.val tl.isLt).2.1 b ch).trans ?_
  rw [htl]
  exact runSum_last _

theorem count_final (c : Dev nD) (b : Fin NB) :
    ((dat0 V c).arrAt 4 cfg0.N : S8x1.Idx → EReal) (ix2 b 0) = segSum (ids V c) (fun _ => one) b := by
  obtain ⟨tl, htl⟩ := exists_last
  rw [final4 V c tl htl]
  refine ((outs_inv V c tl.val tl.isLt).2.2 b).trans ?_
  rw [htl]
  exact runSum_last _

end Cert.KernelIdeal.Acc

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.Region1.lean ====
/-
  The second pass, read at an entry of its result.

  At every grid point the body fetches a block of 5000 rows of the feature table and of the one-column matrix of
  segment ids, the two 8 × 64 tables (segment means, reciprocal deviations) and the two channel vectors whole, and
  writes back the 5000 rows of the result. The body turns each row's id word into a row of 8 weights (1 at the
  segment whose number the word is, 0 elsewhere), picks the row's mean and reciprocal deviation out of the tables by
  multiplying the weight rows with them, centres the row, scales it by the reciprocal deviation, by the first channel
  vector, and adds the second. First the body's arithmetic at one entry (r, ch) of a block; then what a grid point
  writes back as a block of one function of the whole arrays; then, the blocks covering every row, the result array.
-/
import proofs.«401720_j6047313953112_3_alg».proof.Proof.KView
import proofs.«401720_j6047313953112_3_alg».proof.Proof.LibDot
import Idealize.ShloMosaic.Lib.Pipeline.Value
import Idealize.ShloMosaic.Lib.ValueLayout
import Idealize.ShloMosaic.PureOps.Ideal.Laws
import Idealize.ShloMosaic.Lib.Tactic

noncomputable section

open scoped BigOperators

namespace Cert.KernelIdeal.Apply

open Cert.KernelIdeal Cert.KernelIdeal.Gen Cert.KernelIdeal.View Cert.SegNorm
open Idealize.ShloMosaic Idealize.ShloMosaic.TcCoe Idealize.ShloMosaic.ValueIdx Idealize.SL.Sem
open Idealize.ShloMosaic.Pipeline (Dat)

/-! ## The body's arithmetic at one entry of a block -/

/-- The weight of a row in a segment, as the body computes it: the comparison of the row's id word with the segment's
    number, widened to 32 bits and converted, is 1 when they agree and 0 otherwise. -/
theorem weight_word (s : BitVec 32) (b : Fin 8) :
    (FloatOps.sitofp (F := Ideal) .f32 ((IntOp.cmpi .eq s (BitVec.ofNat 32 b.val)).setWidth 32) : EReal) = wtv s b := by
  unfold wtv
  by_cases h : s = BitVec.ofNat 32 b.val
  · rw [if_pos h]
    show (((((IntOp.cmpi .eq s (BitVec.ofNat 32 b.val)).setWidth 32).toInt : ℝ)) : EReal) = 1
    simp [IntOp.cmpi, h]
  · rw [if_neg h]
    have hb : (s == BitVec.ofNat 32 b.val) = false := by simpa using h
    show (((((IntOp.cmpi .eq s (BitVec.ofNat 32 b.val)).setWidth 32).toInt : ℝ)) : EReal) = 0
    simp [IntOp.cmpi, hb]

/-- The body's row of weights at (r, b): the block of ids, flattened and put back as a column, spread over the 8
    segments, compared with the segment numbers, widened and converted. -/
theorem weights_apply (v0 : Vec Ideal S5000x1 .i32) (r : Fin 5000) (b : Fin 8) :
    (sitofp (F := Ideal) .f32 (extui 32 (cmpi .eq
        (broadcastTo S5000x8 (shapeCast S5000x1 (shapeCast S5000 v0 shapeCasts_S5000x1_S5000) shapeCasts_S5000_S5000x1)
          broadcasts_S5000x1_S5000x8)
        (iota .tc S5000x8 32 [1] iota_S5000x8_d1_w32)) natLt_1_32) : S5000x8.Idx → EReal) (ix2 r b)
      = wtv (v0 (ix2 r 0)) b := by
  rw [sitofp_apply, extui_apply]
  show (FloatOps.sitofp (F := Ideal) .f32 ((IntOp.cmpi .eq
      (broadcastTo S5000x8 (shapeCast S5000x1 (shapeCast S5000 v0 shapeCasts_S5000x1_S5000) shapeCasts_S5000_S5000x1)
          broadcasts_S5000x1_S5000x8 (ix2 r b))
      (iota .tc S5000x8 32 [1] iota_S5000x8_d1_w32 (ix2 r b))).setWidth 32) : EReal) = _
  rw [iota_single_apply]
  rw [broadcastTo_apply _ broadcasts_S5000x1_S5000x8 (ix2 r b) (ix2 r (0 : Fin 1)) (fun a => by
      match a with
      | ⟨0, _⟩ => rfl
      | ⟨1, _⟩ => rfl)]
  rw [shapeCast_apply _ shapeCasts_S5000_S5000x1 (ix2 r (0 : Fin 1)) (ix1 r) (by
      rw [Shape.rowMajor_val_two, Shape.rowMajor_val_one]; show r.val = r.val * 1 + 0; omega)]
  rw [shapeCast_apply _ shapeCasts_S5000x1_S5000 (ix1 r) (ix2 r (0 : Fin 1)) (by
      rw [Shape.rowMajor_val_two, Shape.rowMajor_val_one]; show r.val * 1 + 0 = r.val; omega)]
  exact weight_word (v0 (ix2 r 0)) b

/-- The body's 5000 × 8 block of weights, from its block of ids. -/
def weights (v0 : Vec Ideal S5000x1 .i32) : FVec Ideal S5000x8 .f32 :=
  sitofp .f32 (extui 32 (cmpi .eq
    (broadcastTo S5000x8 (shapeCast S5000x1 (shapeCast S5000 v0 shapeCasts_S5000x1_S5000) shapeCasts_S5000_S5000x1)
      broadcasts_S5000x1_S5000x8)
    (iota .tc S5000x8 32 [1] iota_S5000x8_d1_w32)) natLt_1_32)

/-- Its entry at (r, b) is the weight of row r's id word in segment b. -/
theorem weights_eq (v0 : Vec Ideal S5000x1 .i32) (r : Fin 5000) (b : Fin 8) :
    (weights v0 : S5000x8.Idx → EReal) (ix2 r b) = wtv (v0 (ix2 r 0)) b := by
  unfold weights
  exact weights_apply v0 r b

/-- The product of a block of weights with an 8 × 64 table, into the zero accumulator, at (r, ch): the sum over the
    segments of the row's weight times the table's entry. -/
theorem pick_apply (W : FVec Ideal S5000x8 .f32) (T : FVec Ideal S8x64 .f32) (r : Fin 5000) (ch : Fin 64) :
    (matmul dot_S5000x8_S8x64_S5000x64_1_0_0_1_n_n (some .fp32) W (shapeCast S8x64 T shapeCasts_S8x64_S8x64 : FVec Ideal S8x64 .f32)
        (constant (F := Ideal) S5000x64 .f32 0x00000000#32) : S5000x64.Idx → EReal) (ix2 r ch)
      = ∑ b : Fin 8, W (ix2 r b) * T (ix2 b ch) := by
  refine (Cert.LibDot.matmul_rows_apply dot_S5000x8_S8x64_S5000x64_1_0_0_1_n_n rfl rfl rfl rfl rfl rfl (some .fp32) W
    (shapeCast S8x64 T shapeCasts_S8x64_S8x64 : FVec Ideal S8x64 .f32) (constant (F := Ideal) S5000x64 .f32 0x00000000#32) r ch).trans ?_
  rw [constant_apply, Ideal.ofBits_zero_f32, zero_add, shapeCast_self]

/-- A channel vector, cast to one row and spread over the 5000 rows, reads its entry at the channel. -/
theorem spread_apply (g : Vec Ideal S64 .f32) (r : Fin 5000) (ch : Fin 64) :
    (broadcastTo S5000x64 (shapeCast S1x64 g shapeCasts_S64_S1x64) broadcasts_S1x64_S5000x64 : S5000x64.Idx → EReal) (ix2 r ch)
      = g (ix1 ch) :=
  (broadcastTo_1b_ab_apply _ broadcasts_S1x64_S5000x64 r ch).trans (shapeCast_a_1a_apply g shapeCasts_S64_S1x64 0 ch)

/-- THE BODY'S RESULT AT (r, ch): the row's entry minus its segment's mean, times its segment's reciprocal deviation,
    times the first channel vector's entry, plus the second's — mean and reciprocal deviation picked out of the tables
    by the row's weights. -/
theorem payload_apply (v0 : Vec Ideal S5000x1 .i32) (v8 v11 : Vec Ideal S8x64 .f32) (v14 : Vec Ideal S5000x64 .f32)
    (v17 v21 : Vec Ideal S64 .f32) (r : Fin 5000) (ch : Fin 64) :
    (k1_pay1 (F := Ideal) v0 v8 v11 v14 v17 v21 : S5000x64.Idx → EReal) (ix2 r ch)
      = ((v14 (ix2 r ch) - ∑ b : Fin 8, wtv (v0 (ix2 r 0)) b * v8 (ix2 b ch))
          * (∑ b : Fin 8, wtv (v0 (ix2 r 0)) b * v11 (ix2 b ch))) * v17 (ix1 ch) + v21 (ix1 ch) := by
  show ((v14 (ix2 r ch)
        - (matmul dot_S5000x8_S8x64_S5000x64_1_0_0_1_n_n (some .fp32) (weights v0) (shapeCast S8x64 v8 shapeCasts_S8x64_S8x64)
            (constant (F := Ideal) S5000x64 .f32 0x00000000#32) : S5000x64.Idx → EReal) (ix2 r ch))
        * (matmul dot_S5000x8_S8x64_S5000x64_1_0_0_1_n_n (some .fp32) (weights v0) (shapeCast S8x64 v11 shapeCasts_S8x64_S8x64)
            (constant (F := Ideal) S5000x64 .f32 0x00000000#32) : S5000x64.Idx → EReal) (ix2 r ch))
        * (broadcastTo S5000x64 (shapeCast S1x64 v17 shapeCasts_S64_S1x64) broadcasts_S1x64_S5000x64 : S5000x64.Idx → EReal) (ix2 r ch)
      + (broadcastTo S5000x64 (shapeCast S1x64 v21 shapeCasts_S64_S1x64) broadcasts_S1x64_S5000x64 : S5000x64.Idx → EReal) (ix2 r ch) = _
  rw [pick_apply, pick_apply, spread_apply, spread_apply]
  simp only [weights_eq]

/-! ## What a grid point writes back -/

variable (V : Contents)

/-- One entry of the result from the six values it is made of: the row's entry x and id word s, the two tables, the
    two channel vectors' entries. -/
def entry (x : EReal) (s : BitVec 32) (M R : S8x64.Idx → EReal) (g d : EReal) (ch : Fin 64) : EReal :=
  ((x - ∑ b : Fin 8, wtv s b * M (ix2 b ch)) * (∑ b : Fin 8, wtv s b * R (ix2 b ch))) * g + d

/-- The result array as one function of the arrays the region finds, index by index. -/
def result (c : Dev nD) : S1000000x64.Idx → EReal := fun j =>
  entry (rows V c (j 0) (j 1)) (ids V c (j 0)) (V c main_v4) (V c main_v15)
    ((V c main_arg2 : S64.Idx → EReal) (ix1 (j 1))) ((V c main_arg3 : S64.Idx → EReal) (ix1 (j 1))) (j 1)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the row blocks of the feature table, of the ids and of the result
    are at block index (t, 0); the tables and the channel vectors are fetched whole, block index 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 ∧ win1_5.index t (0 : Fin 1) = 0
    ∧ win1_6.index t (0 : Fin 2) = t.val ∧ win1_6.index t (1 : Fin 2) = 0 :=
  (by decide +kernel : ∀ t : Fin grid1.N, _)

/-- An entry of the feature table's block at point t is the table's entry 5000 t rows further down. -/
theorem blk_rows (c : Dev nD) (t : Fin cfg1.N) (r : Fin 5000) (ch : Fin 64) (n : Fin NR)
    (hn : n.val = 5000 * t.val + r.val) :
    (iblk1 V c 0 t : S5000x64.Idx → EReal) (ix2 r ch) = rows V c n ch := by
  obtain ⟨e0, e1, -⟩ := idx_facts t
  unfold iblk1
  rw [View.read_apply]
  show (V c main_arg0 : S1000000x64.Idx → EReal) _ = (V c main_arg0 : S1000000x64.Idx → EReal) (ix2 n ch)
  congr 1
  funext a
  apply Fin.ext
  match a with
  | ⟨0, _⟩ => show win1_0.index t (0 : Fin 2) * 5000 + 1 * r.val = n.val; rw [e0, hn]; omega
  | ⟨1, _⟩ => show win1_0.index t (1 : Fin 2) * 64 + 1 * ch.val = ch.val; rw [e1]; omega

/-- An entry of the id column's block at point t is the column's entry 5000 t rows further down. -/
theorem blk_ids (c : Dev nD) (t : Fin cfg1.N) (r : Fin 5000) (n : Fin NR)
    (hn : n.val = 5000 * t.val + r.val) :
    (iblk1 V c 1 t : S5000x1.Idx → BitVec 32) (ix2 r 0) = ids V c n := by
  obtain ⟨-, -, e0, e1, -⟩ := idx_facts t
  unfold iblk1
  rw [View.read_apply]
  show (V c main_v0 : S1000000x1.Idx → BitVec 32) _ = (V c main_v0 : S1000000x1.Idx → BitVec 32) (ix2 n 0)
  congr 1
  funext a
  apply Fin.ext
  match a with
  | ⟨0, _⟩ => show win1_1.index t (0 : Fin 2) * 5000 + 1 * r.val = n.val; rw [e0, hn]; omega
  | ⟨1, _⟩ => show win1_1.index t (1 : Fin 2) * 1 + 1 * 0 = 0; rw [e1]

/-- The table of means is fetched whole: its block at any point is the table. -/
theorem blk_means (c : Dev nD) (t : Fin cfg1.N) :
    (iblk1 V c 2 t : S8x64.Idx → EReal) = (V c main_v4 : S8x64.Idx → EReal) := by
  obtain ⟨-, -, -, -, e0, e1, -⟩ := idx_facts t
  funext y
  obtain ⟨b, ch, rfl⟩ : ∃ (b : Fin 8) (ch : Fin 64), y = ix2 b ch := ⟨y 0, y 1, eq_ix2 y⟩
  unfold iblk1
  rw [View.read_apply]
  show (V c main_v4 : S8x64.Idx → EReal) _ = (V c main_v4 : S8x64.Idx → EReal) (ix2 b ch)
  congr 1
  funext a
  apply Fin.ext
  match a with
  | ⟨0, _⟩ => show win1_2.index t (0 : Fin 2) * 8 + 1 * b.val = b.val; rw [e0]; omega
  | ⟨1, _⟩ => show win1_2.index t (1 : Fin 2) * 64 + 1 * ch.val = ch.val; rw [e1]; omega

/-- The table of reciprocal deviations is fetched whole. -/
theorem blk_invs (c : Dev nD) (t : Fin cfg1.N) :
    (iblk1 V c 3 t : S8x64.Idx → EReal) = (V c main_v15 : S8x64.Idx → EReal) := by
  obtain ⟨-, -, -, -, -, -, e0, e1, -⟩ := idx_facts t
  funext y
  obtain ⟨b, ch, rfl⟩ : ∃ (b : Fin 8) (ch : Fin 64), y = ix2 b ch := ⟨y 0, y 1, eq_ix2 y⟩
  unfold iblk1
  rw [View.read_apply]
  show (V c main_v15 : S8x64.Idx → EReal) _ = (V c main_v15 : S8x64.Idx → EReal) (ix2 b ch)
  congr 1
  funext a
  apply Fin.ext
  match a with
  | ⟨0, _⟩ => show win1_3.index t (0 : Fin 2) * 8 + 1 * b.val = b.val; rw [e0]; omega
  | ⟨1, _⟩ => show win1_3.index t (1 : Fin 2) * 64 + 1 * ch.val = ch.val; rw [e1]; omega

/-- The first channel vector is fetched whole. -/
theorem blk_scale (c : Dev nD) (t : Fin cfg1.N) (ch : Fin 64) :
    (iblk1 V c 4 t : S64.Idx → EReal) (ix1 ch) = (V c main_arg2 : S64.Idx → EReal) (ix1 ch) := by
  obtain ⟨-, -, -, -, -, -, -, -, e0, -⟩ := idx_facts t
  unfold iblk1
  rw [View.read_apply]
  show (V c main_arg2 : S64.Idx → EReal) _ = (V c main_arg2 : S64.Idx → EReal) (ix1 ch)
  congr 1
  funext a
  apply Fin.ext
  match a with
  | ⟨0, _⟩ => show win1_4.index t (0 : Fin 1) * 64 + 1 * ch.val = ch.val; rw [e0]; omega

/-- The second channel vector is fetched whole. -/
theorem blk_shift (c : Dev nD) (t : Fin cfg1.N) (ch : Fin 64) :
    (iblk1 V c 5 t : S64.Idx → EReal) (ix1 ch) = (V c main_arg3 : S64.Idx → EReal) (ix1 ch) := by
  obtain ⟨-, -, -, -, -, -, -, -, -, e0, -⟩ := idx_facts t
  unfold iblk1
  rw [View.read_apply]
  show (V c main_arg3 : S64.Idx → EReal) _ = (V c main_arg3 : S64.Idx → EReal) (ix1 ch)
  congr 1
  funext a
  apply Fin.ext
  match a with
  | ⟨0, _⟩ => show win1_5.index t (0 : Fin 1) * 64 + 1 * ch.val = ch.val; rw [e0]; omega

/-- Entry (r, ch) of the result's block at point t sits in the array at row 5000 t + r, channel ch. -/
theorem blk_out_emb (t : Fin cfg1.N) (r : Fin 5000) (ch : Fin 64) (n : Fin NR) (hn : n.val = 5000 * t.val + r.val) :
    (((cfg1.win 6).blk t).view.emb (ix2 r ch) : S1000000x64.Idx) = ix2 n ch := by
  obtain ⟨-, -, -, -, -, -, -, -, -, -, e0, e1⟩ := idx_facts t
  funext a
  apply Fin.ext
  match a with
  | ⟨0, _⟩ => show win1_6.index t (0 : Fin 2) * 5000 + 1 * r.val = n.val; rw [e0, hn]; omega
  | ⟨1, _⟩ => show win1_6.index t (1 : Fin 2) * 64 + 1 * ch.val = ch.val; rw [e1]; omega

/-- WHAT POINT t WRITES BACK is block t of the result array. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S5000x1) hz2,
    View.ld_unit_zero (S := S8x64) hz2, View.ld_unit_zero (S := S64) hz1]
  funext y
  obtain ⟨r, ch, rfl⟩ : ∃ (r : Fin 5000) (ch : Fin 64), y = ix2 r ch := ⟨y 0, y 1, eq_ix2 y⟩
  have hN : cfg1.N = 200 := N_1
  have ht : t.val < 200 := hN ▸ t.isLt
  have hlt : 5000 * t.val + r.val < NR := by show 5000 * t.val + r.val < 1000000; omega
  show (k1_pay1 (F := Ideal) (iblk1 V c 1 t) (iblk1 V c 2 t) (iblk1 V c 3 t) (iblk1 V c 0 t) (iblk1 V c 4 t) (iblk1 V c 5 t)
      : S5000x64.Idx → EReal) (ix2 r ch) = result V c (((cfg1.win 6).blk t).view.emb (ix2 r ch))
  refine (payload_apply (iblk1 V c 1 t) (iblk1 V c 2 t) (iblk1 V c 3 t) (iblk1 V c 0 t) (iblk1 V c 4 t) (iblk1 V c 5 t) r ch).trans ?_
  rw [blk_out_emb t r ch ⟨5000 * t.val + r.val, hlt⟩ rfl]
  show entry ((iblk1 V c 0 t : S5000x64.Idx → EReal) (ix2 r ch)) ((iblk1 V c 1 t : S5000x1.Idx → BitVec 32) (ix2 r 0))
      (iblk1 V c 2 t : S8x64.Idx → EReal) (iblk1 V c 3 t : S8x64.Idx → EReal)
      ((iblk1 V c 4 t : S64.Idx → EReal) (ix1 ch)) ((iblk1 V c 5 t : S64.Idx → EReal) (ix1 ch)) ch
    = entry (rows V c ⟨5000 * t.val + r.val, hlt⟩ ch) (ids V c ⟨5000 * t.val + r.val, hlt⟩) (V c main_v4) (V c main_v15)
      ((V c main_arg2 : S64.Idx → EReal) (ix1 ch)) ((V c main_arg3 : S64.Idx → EReal) (ix1 ch)) ch
  rw [blk_rows V c t r ch ⟨5000 * t.val + r.val, hlt⟩ rfl, blk_ids V c t r ⟨5000 * t.val + r.val, hlt⟩ rfl,
    blk_means V c t, blk_invs V c t, blk_scale V c t ch, blk_shift V c t ch]

/-! ## The blocks cover the array: the result array -/

/-- An index of the array is in point t's block iff each coordinate is in the block's range on its axis. -/
theorem mem_blk (t : Fin cfg1.N) (i : S1000000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v16).slice (win1_6.rect t)).set ↔ _
  rw [View.set_slice_whole, Rect.mem_set_unit]
  exact Iff.rfl

/-- Row n is in the block of point n / 5000, and every point writes its block back. -/
theorem covered (i : S1000000x64.Idx) :
    ∃ t : Fin cfg1.N, (cfg1.win 6).flush t = true ∧ i ∈ ((cfg1.win 6).blk t).view.set := by
  have hi0 : (i 0).val < 1000000 := idx2_lt0 i
  have hi1 : (i 1).val < 64 := idx2_lt1 i
  have hN : cfg1.N = 200 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := idx_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 64 ≤ (i 1).val ∧ (i 1).val < win1_6.index t (1 : Fin 2) * 64 + 64
    rw [e1]; omega

/-- THE RESULT ARRAY after the region is the result function of the arrays the region finds. -/
theorem final (c : Dev nD) : (dat1 V c).arrAt 6 cfg1.N = result V c :=
  (dat1 V c).arrAt_eq_of_cover 6 (result V c) (fun t _ => flushed_eq V c t) covered

theorem out_final (c : Dev nD) (n : Fin NR) (ch : Fin NC) :
    ((dat1 V c).arrAt 6 cfg1.N : S1000000x64.Idx → EReal) (ix2 n ch)
      = ((rows V c n ch - ∑ b : Fin NB, wtv (ids V c n) b * (V c main_v4 : S8x64.Idx → EReal) (ix2 b ch))
          * (∑ b : Fin NB, wtv (ids V c n) b * (V c main_v15 : S8x64.Idx → EReal) (ix2 b ch)))
        * (V c main_arg2 : S64.Idx → EReal) (ix1 ch) + (V c main_arg3 : S64.Idx → EReal) (ix1 ch) := by
  rw [final]
  rfl

end Cert.KernelIdeal.Apply

end
-- ==== Proof.KernelValue.lean ====
/-
  What the kernel's run leaves in its result array: the first arrangement of the specification, of the launched arguments.

  The first region's three results are the segment sums, sums of squares and counts of the launched table and ids (the
  accumulation over the grid); the host turns them into the mean table and the reciprocal-deviation table, which are
  the specification's `mean` and `kInv` entry by entry; the second region applies them row by row, the row's
  segment picked by the weights: `kOut`.
-/
import proofs.«401720_j6047313953112_3_alg».proof.Proof.KRun
import proofs.«401720_j6047313953112_3_alg».proof.Proof.HostMid
import proofs.«401720_j6047313953112_3_alg».proof.Proof.Region0
import proofs.«401720_j6047313953112_3_alg».proof.Proof.Region1

noncomputable section

open scoped BigOperators

namespace Cert.KernelIdeal.Result

open Cert.KernelIdeal Cert.KernelIdeal.Gen Cert.KernelIdeal.View Cert.KernelIdeal.Mid Cert.SegNorm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The launched arguments, read as the specification's: the table by (row, channel), the id by row, the scale and
    the shift by channel. -/
abbrev xs (c : Dev nD) : Fin NR → Fin NC → EReal :=
  fun n ch => (m ((c : Thread nD τ).loc main_arg0) : S1000000x64.Idx → EReal) (ix2 n ch)
abbrev sids (c : Dev nD) : Fin NR → BitVec 32 :=
  fun n => (m ((c : Thread nD τ).loc main_arg1) : S1000000.Idx → BitVec 32) (ix1 n)
abbrev gam (c : Dev nD) : Fin NC → EReal :=
  fun ch => (m ((c : Thread nD τ).loc main_arg2) : S64.Idx → EReal) (ix1 ch)
abbrev bet (c : Dev nD) : Fin NC → EReal :=
  fun ch => (m ((c : Thread nD τ).loc main_arg3) : S64.Idx → EReal) (ix1 ch)

/-- The one-column id matrix at (n, 0) is the launched id vector at n. -/
theorem idcol_apply (c : Dev nD) (n : Fin NR) :
    (V1 m ρ c main_v0 : S1000000x1.Idx → BitVec 32) (ix2 n 0) = sids m c n := by
  rw [entry0_v0]
  exact broadcastInDim_apply _ bcast_S1000000_S1000000x1_0 _ (ix2 n 0) (ix1 n) (fun a => match a with
    | ⟨0, _⟩ => by show n.val = if (1000000 : Nat) = 1 then 0 else n.val; rw [if_neg (by decide)])

/-- Both regions find the launched table and the launched ids. -/
theorem rows_entry0 (c : Dev nD) : rows (V1 m ρ) c = xs m c := by
  funext n ch
  show (V1 m ρ c main_arg0 : S1000000x64.Idx → EReal) (ix2 n ch) = _
  rw [entry0_arg0]
theorem ids_entry0 (c : Dev nD) : ids (V1 m ρ) c = sids m c := funext fun n => idcol_apply m ρ c n
theorem rows_entry1 (c : Dev nD) : rows (V5 m ρ) c = xs m c := by
  funext n ch
  show (V5 m ρ c main_arg0 : S1000000x64.Idx → EReal) (ix2 n ch) = _
  rw [entry1_arg0]
theorem ids_entry1 (c : Dev nD) : ids (V5 m ρ) c = sids m c := by
  funext n
  show (V5 m ρ c main_v0 : S1000000x1.Idx → BitVec 32) (ix2 n 0) = _
  rw [entry1_v0]
  exact idcol_apply m ρ c n

/-- The second region's mean table is the specification's `mean` of the launched arguments. -/
theorem mean_entry1 (c : Dev nD) (b : Fin NB) (ch : Fin NC) :
    (V5 m ρ c main_v4 : S8x64.Idx → EReal) (ix2 b ch) = mean (xs m c) (sids m c) b ch := by
  rw [entry1_v4, meanT_apply, exit0_sum, exit0_count, Acc.sum_final, Acc.count_final, rows_entry0, ids_entry0]
  rfl

/-- Its reciprocal-deviation table is the specification's `kInv`. -/
theorem inv_entry1 (c : Dev nD) (b : Fin NB) (ch : Fin NC) :
    (V5 m ρ c main_v15 : S8x64.Idx → EReal) (ix2 b ch) = kInv (xs m c) (sids m c) b ch := by
  rw [entry1_v15, invT_apply, exit0_sum, exit0_sumsq, exit0_count, Acc.sum_final, Acc.sumsq_final, Acc.count_final,
    rows_entry0, ids_entry0]
  rfl

/-- THE RESULT ARRAY, entry by entry: the first arrangement. -/
theorem result_apply (c : Dev nD) (n : Fin NR) (ch : Fin NC) :
    (W6 m ρ c (Proc.devRef .tc main_v16) : S1000000x64.Idx → EReal) (ix2 n ch)
      = kOut (xs m c) (sids m c) (gam m c) (bet m c) n ch := by
  rw [show W6 m ρ c (Proc.devRef .tc main_v16) = (dat1 (V5 m ρ) c).arrAt 6 cfg1.N from W6_arr m ρ c 6,
    Apply.out_final, rows_entry1, ids_entry1]
  have e1 : (∑ b : Fin NB, wtv (sids m c n) b * (V5 m ρ c main_v4 : S8x64.Idx → EReal) (ix2 b ch))
      = ∑ b : Fin NB, wtv (sids m c n) b * mean (xs m c) (sids m c) b ch :=
    Finset.sum_congr rfl fun b _ => by rw [mean_entry1]
  have e2 : (∑ b : Fin NB, wtv (sids m c n) b * (V5 m ρ c main_v15 : S8x64.Idx → EReal) (ix2 b ch))
      = ∑ b : Fin NB, wtv (sids m c n) b * kInv (xs m c) (sids m c) b ch :=
    Finset.sum_congr rfl fun b _ => by rw [inv_entry1]
  rw [e1, e2, entry1_arg2, entry1_arg3]
  rfl

/-- The result array as one function of the launched arguments. -/
def outArr (c : Dev nD) : Buf (Elt Ideal) ((c.tc : Thread nD τ).loc main_v16) :=
  fun j => kOut (xs m c) (sids m c) (gam m c) (bet m c) (j 0) (j 1)

theorem result_eq (c : Dev nD) : W6 m ρ c (Proc.devRef .tc main_v16) = outArr m c := by
  funext j
  obtain ⟨n, ch, rfl⟩ : ∃ (n : Fin NR) (ch : Fin NC), j = ix2 n ch := ⟨j 0, j 1, eq_ix2 j⟩
  exact result_apply m ρ c n ch

/-- The kernel's run: it terminates, nothing faulting, with the result array at `outArr` and the arguments as launched. -/
theorem run : θ_run defs (onTc (τ := τ) (main (F := Ideal))) ⟨m, fun _ => 0, ρ⟩ (fun r => ∀ c : Dev nD,
      r.2.mem ((c.tc : Thread nD τ).loc main_v16) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m ρ c), (h c).2⟩) (Run.run_result m ρ)

end Cert.KernelIdeal.Result

end
-- ==== Proof.Reference.lean ====
/-
  The reference program's result, read index by index, is the specification's second arrangement.

  The program sums per segment by scatter-add: the update of row n lands on segment b exactly when the row's id, read
  as a signed word and not clamped, is b, and is dropped when the id is outside 0..7. Over an operand of zeros the
  scatter-add at b is therefore the sum over ALL rows of weight times update, the weight 1 when the id is the word b
  and 0 otherwise: the specification's `segSum`. The count's scatter adds ones (then max(1, ·) gives `cnt`), the
  table's adds the rows of x (divided by `cnt`: `mean`), and later the squared centred rows (divided by `cnt`:
  `rVar`).

  The program reads a table back per row by gather: the start index is the id moved up by 8 when it reads negative,
  and the gather then holds it inside 0..7; that composite is `seg`, the segment the row chooses. The row's mean is
  the mean table at `seg`, the row's deviation the table √(var' + ε) at `seg`, and the result
  (x − mean) / deviation · γ + β is `rOut` over the choice `seg`. When an id is already in 0..7, `seg` is the
  id's own segment (`seg_of_range`).
-/
import proofs.«401720_j6047313953112_3_alg».proof.Proof.Spec
import proofs.«401720_j6047313953112_3_alg».proof.Proof.Gen.ReferenceIdeal.Read
import Idealize.ShloMosaic.Lib.ValueIdx
import Idealize.ShloMosaic.Lib.ValueIdxRank1
import Idealize.ShloMosaic.PureOps.Ideal.Laws
import Idealize.ShloMosaic.Lib.StableHlo.Predicate

noncomputable section

open scoped BigOperators

namespace Cert.ReferenceIdeal.RefValue

open Cert.ReferenceIdeal Cert.ReferenceIdeal.Gen Cert.SegNorm
open Idealize.ShloMosaic Idealize.ShloMosaic.ValueIdx

/-! ## Words: a segment's word and the signed reading of an id -/

/-- An id word reads, signed, as the number `b` below 8 exactly when it is the word `b`. -/
theorem toInt_eq_iff (s : BitVec 32) (b : Fin NB) : s.toInt = (b.val : Int) ↔ s = BitVec.ofNat 32 b.val := by
  have hb : b.val < 8 := b.isLt
  rw [← BitVec.toNat_inj, BitVec.toNat_ofNat, BitVec.toInt_eq_toNat_cond]
  have hs := s.isLt
  split <;> omega

/-- The weight times a term is the term when the id is the segment's word and 0 otherwise. -/
theorem wtv_mul (s : BitVec 32) (b : Fin NB) (y : EReal) :
    wtv s b * y = if s.toInt = (b.val : Int) then y else 0 := by
  unfold wtv
  by_cases h : s = BitVec.ofNat 32 b.val
  · rw [if_pos h, if_pos ((toInt_eq_iff s b).2 h), one_mul]
  · rw [if_neg h, if_neg (fun h' => h ((toInt_eq_iff s b).1 h')), zero_mul]

/-! ## Where a scattered update lands -/

/-- An update lands on `i` exactly when, on every axis, start plus window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro e a
      have h' := h a
      have e' : ((d.start j idx a + ↑(d.window j a)).toNat) = (i a).val := congrArg Fin.val (congrFun e a)
      omega
    · intro e
      funext a
      apply Fin.ext
      show (d.start j idx a + ↑(d.window j a)).toNat = (i a).val
      have := e a; omega
  · rename_i h
    constructor
    · intro e; cases e
    · intro e
      exfalso; apply h
      intro a
      have := e a
      have := (i a).isLt
      constructor <;> omega

/-! ## The two scatter-adds of this program, read at an index -/

section Scatter

/-- The count's scatter: a row's update lands on segment `b` exactly when the row's id reads, signed, as `b`. -/
theorem land1 (idx : IVec S1000000x1 32) (n : Fin NR) (b : Fin NB) :
    scatter_S8_S1000000x1_S1000000_n_0_0_1.resultIdx? (ix1 n) idx = some (ix1 b)
      ↔ (idx (ix2 n (0 : Fin 1))).toInt = (b.val : Int) := by
  rw [resultIdx?_eq_some_iff]
  have hs : scatter_S8_S1000000x1_S1000000_n_0_0_1.start (ix1 n) idx 0 = (idx (ix2 n (0 : Fin 1))).toInt := by
    unfold ScatterDims.start
    rw [dif_pos (show (0 : Fin 1) ∈ scatter_S8_S1000000x1_S1000000_n_0_0_1.scatterDimsToOperandDims from
      List.mem_singleton.mpr rfl)]
    congr 2
    funext a
    match a with
    | ⟨0, _⟩ => rfl
    | ⟨1, _⟩ => rfl
  have hw : scatter_S8_S1000000x1_S1000000_n_0_0_1.window (ix1 n) 0 = 0 := by
    unfold ScatterDims.window
    rw [dif_neg (by decide)]
  constructor
  · intro h
    have := h 0
    rw [hs, hw] at this
    simpa using this
  · intro h a
    obtain rfl : a = 0 := Subsingleton.elim _ _
    rw [hs, hw, h]
    rfl

/-- The table's scatter: the update at row `n`, channel `c'` lands on (b, c) exactly when the row's id reads, signed,
    as `b` and the channel is `c`. -/
theorem land2 (idx : IVec S1000000x1 32) (n : Fin NR) (c' : Fin NC) (b : Fin NB) (c : Fin NC) :
    scatter_S8x64_S1000000x1_S1000000x64_1_0_0_1.resultIdx? (ix2 n c') idx = some (ix2 b c)
      ↔ (idx (ix2 n (0 : Fin 1))).toInt = (b.val : Int) ∧ c' = c := by
  rw [resultIdx?_eq_some_iff]
  have hs0 : scatter_S8x64_S1000000x1_S1000000x64_1_0_0_1.start (ix2 n c') idx 0
      = (idx (ix2 n (0 : Fin 1))).toInt := by
    unfold ScatterDims.start
    rw [dif_pos (show (0 : Fin 2) ∈ scatter_S8x64_S1000000x1_S1000000x64_1_0_0_1.scatterDimsToOperandDims from
      List.mem_singleton.mpr rfl)]
    congr 2
    funext a
    match a with
    | ⟨0, _⟩ => rfl
    | ⟨1, _⟩ => rfl
  have hs1 : scatter_S8x64_S1000000x1_S1000000x64_1_0_0_1.start (ix2 n c') idx 1 = 0 := by
    unfold ScatterDims.start
    rw [dif_neg (by decide)]
  have hw0 : scatter_S8x64_S1000000x1_S1000000x64_1_0_0_1.window (ix2 n c') 0 = 0 := by
    unfold ScatterDims.window
    rw [dif_neg (by decide)]
  have hw1 : scatter_S8x64_S1000000x1_S1000000x64_1_0_0_1.window (ix2 n c') 1 = c'.val := by
    unfold ScatterDims.window
    rw [dif_pos (by decide)]
    rfl
  constructor
  · intro h
    have h0 := h 0
    have h1 := h 1
    rw [hs0, hw0] at h0
    rw [hs1, hw1] at h1
    refine ⟨by simpa using h0, Fin.ext ?_⟩
    have : ((c'.val : Nat) : Int) = ((c.val : Nat) : Int) := by simpa using h1
    exact_mod_cast this
  · rintro ⟨h, rfl⟩ a
    match a with
    | ⟨0, _⟩ =>
      show scatter_S8x64_S1000000x1_S1000000x64_1_0_0_1.start (ix2 n c') idx 0
        + ((scatter_S8x64_S1000000x1_S1000000x64_1_0_0_1.window (ix2 n c') 0 : Nat) : Int) = ((b.val : Nat) : Int)
      rw [hs0, hw0, h]; simp
    | ⟨1, _⟩ =>
      show scatter_S8x64_S1000000x1_S1000000x64_1_0_0_1.start (ix2 n c') idx 1
        + ((scatter_S8x64_S1000000x1_S1000000x64_1_0_0_1.window (ix2 n c') 1 : Nat) : Int) = ((c'.val : Nat) : Int)
      rw [hs1, hw1]; simp

end Scatter

section ScatterSum

/-- THE COUNT'S SCATTER-ADD AT SEGMENT `b`: over an operand that is 0 everywhere, the weighted sum of the updates. -/
theorem scatter1_apply (z : S8.Idx → EReal) (hz : ∀ i, z i = 0) (idx : IVec S1000000x1 32)
    (upd : S1000000.Idx → EReal) (b : Fin NB) :
    Host.scatterAdd (F := Ideal) (φ := .f32) scatter_S8_S1000000x1_S1000000_n_0_0_1 z idx upd (ix1 b)
      = ∑ n : Fin NR, wtv (idx (ix2 n (0 : Fin 1))) b * upd (ix1 n) := by
  show Ideal.hostScatterAdd scatter_S8_S1000000x1_S1000000_n_0_0_1 z idx upd (ix1 b) = _
  unfold Ideal.hostScatterAdd
  rw [hz, zero_add, Finset.sum_filter, ← Equiv.sum_comp (idxEquiv1 (n := 1000000)).symm]
  refine Finset.sum_congr rfl fun n _ => ?_
  show (if scatter_S8_S1000000x1_S1000000_n_0_0_1.resultIdx? (ix1 n) idx = some (ix1 b) then upd (ix1 n) else 0) = _
  rw [wtv_mul]
  exact if_congr (land1 idx n b) rfl rfl

/-- THE TABLE'S SCATTER-ADD AT (b, c): over an operand that is 0 everywhere, the weighted sum over the rows of the
    updates of channel `c`. -/
theorem scatter2_apply (z : S8x64.Idx → EReal) (hz : ∀ i, z i = 0) (idx : IVec S1000000x1 32)
    (upd : S1000000x64.Idx → EReal) (b : Fin NB) (c : Fin NC) :
    Host.scatterAdd (F := Ideal) (φ := .f32) scatter_S8x64_S1000000x1_S1000000x64_1_0_0_1 z idx upd (ix2 b c)
      = ∑ n : Fin NR, wtv (idx (ix2 n (0 : Fin 1))) b * upd (ix2 n c) := by
  show Ideal.hostScatterAdd scatter_S8x64_S1000000x1_S1000000x64_1_0_0_1 z idx upd (ix2 b c) = _
  unfold Ideal.hostScatterAdd
  rw [hz, zero_add, Finset.sum_filter, sum_idx2]
  refine Finset.sum_congr rfl fun n _ => ?_
  rw [wtv_mul, Finset.sum_eq_single c]
  · exact if_congr ((land2 idx n c b c).trans (and_iff_left rfl)) rfl rfl
  · intro c' _ hc
    exact if_neg fun h => hc ((land2 idx n c' b c).1 h).2
  · intro h; exact absurd (Finset.mem_univ c) h

end ScatterSum

/-! ## The gather of this program, read at an index -/

section Gather

/-- THE GATHER AT (n, c): the 8×64 table at the row's start index, read signed and held inside 0..7, the channel kept. -/
theorem gather_apply {α : Type} (T : S8x64.Idx → α) (idx : IVec S1000000x1 32) (n : Fin NR) (c : Fin NC) :
    Host.gather gather_S8x64_S1000000x1_S1000000x64_1_0_n_n_0_1_164 T idx (ix2 n c)
      = T (ix2 (⟨min (idx (ix2 n (0 : Fin 1))).toInt.toNat 7,
          Nat.lt_of_le_of_lt (Nat.min_le_right _ _) (by decide)⟩ : Fin NB) c) := by
  unfold Host.gather
  congr 1
  funext a
  refine Fin.ext ?_
  match a with
  | ⟨0, _⟩ =>
    show gather_S8x64_S1000000x1_S1000000x64_1_0_n_n_0_1_164.start (ix2 n c) idx 0
      + gather_S8x64_S1000000x1_S1000000x64_1_0_n_n_0_1_164.batchCoord (ix2 n c) 0
      + gather_S8x64_S1000000x1_S1000000x64_1_0_n_n_0_1_164.offCoord (ix2 n c) 0 = _
    rw [GatherDims.batchCoord_eq_zero _ _ _ List.not_mem_nil, GatherDims.offCoord_eq_zero _ _ _ (by decide)]
    simp only [Nat.add_zero]
    unfold GatherDims.start
    rw [dif_pos (show (0 : Fin 2) ∈ gather_S8x64_S1000000x1_S1000000x64_1_0_n_n_0_1_164.startIndexMap from
      List.mem_singleton.mpr rfl)]
    have hsi : gather_S8x64_S1000000x1_S1000000x64_1_0_n_n_0_1_164.siIdx (ix2 n c)
        ⟨List.idxOf (0 : Fin 2) gather_S8x64_S1000000x1_S1000000x64_1_0_n_n_0_1_164.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show gather_S8x64_S1000000x1_S1000000x64_1_0_n_n_0_1_164.start (ix2 n c) idx 1
      + gather_S8x64_S1000000x1_S1000000x64_1_0_n_n_0_1_164.batchCoord (ix2 n c) 1
      + gather_S8x64_S1000000x1_S1000000x64_1_0_n_n_0_1_164.offCoord (ix2 n c) 1 = c.val
    rw [GatherDims.batchCoord_eq_zero _ _ _ List.not_mem_nil]
    unfold GatherDims.start GatherDims.offCoord
    rw [dif_neg (by decide), dif_pos (by decide)]
    simp only [Nat.zero_add]
    rfl

end Gather

/-! ## The start indices: the ids normalised -/

/-- The segment a row's id selects when the tables are read at it: a negative id first moved up by 8, then the
    result held inside 0..7. -/
def seg (s : BitVec 32) : Fin NB :=
  ⟨min (if s.toInt < 0 then s + 8#32 else s).toInt.toNat 7, Nat.lt_of_le_of_lt (Nat.min_le_right _ _) (by decide)⟩

theorem seg_of_range (s : BitVec 32) (h0 : 0 ≤ s.toInt) (h8 : s.toInt < 8) : s = BitVec.ofNat 32 (seg s).val := by
  have hv : (seg s).val = min s.toInt.toNat 7 := by
    show min (if s.toInt < 0 then s + 8#32 else s).toInt.toNat 7 = _
    rw [if_neg (by omega)]
  rw [hv, ← BitVec.toNat_inj, BitVec.toNat_ofNat]
  rw [BitVec.toInt_eq_toNat_cond] at h0 h8 ⊢
  have hs := s.isLt
  split at h0 <;> omega

/-- The normalising select on one id: the id moved up by 8 when it reads negative, else the id. -/
theorem select_norm (s : BitVec 32) :
    Scalar.select (IntOp.cmpi .slt s 0#32) (IntOp.addi s 8#32) s = if s.toInt < 0 then s + 8#32 else s := by
  unfold Scalar.select IntOp.cmpi IntOp.addi
  by_cases h : s.toInt < 0
  · rw [if_pos h, if_pos]
    simp [BitVec.slt, h]
  · rw [if_neg h, if_neg]
    simp [BitVec.slt, h]

/-! ## The program, operation by operation -/

section Assemble

variable (x0 : S1000000x64.Idx → EReal) (x1 : S1000000.Idx → BitVec 32) (x2 x3 : S64.Idx → EReal)

/-- The table, the ids and the chosen segments as the specification reads them off the arguments. -/
abbrev xs : Fin NR → Fin NC → EReal := fun n c => x0 (ix2 n c)
abbrev ids : Fin NR → BitVec 32 := fun n => x1 (ix1 n)
abbrev segs : Fin NR → Fin NB := fun n => seg (x1 (ix1 n))

/-- The count per segment before the clamp: the weighted sum of ones. -/
theorem v3_eq (b : Fin NB) :
    Read.val_main_v3 (F := Ideal) x1 (ix1 b) = segSum (ids x1) (fun _ => one) b := by
  unfold Read.val_main_v3
  refine (scatter1_apply _ (fun i => ?_) _ _ b).trans ?_
  · rw [Read.val_main_v1_apply, Read.val_main_cst_0_apply]
    exact Ideal.ofBits_zero_f32
  · unfold segSum
    refine Finset.sum_congr rfl fun n _ => ?_
    rw [Read.val_main_v2_apply, Read.val_main_v0_apply, Read.val_main_cst_apply]
    have hi : Read.idx_main_v2 (ix2 n (0 : Fin 1)) = ix1 n := by
      funext a; match a with | ⟨0, _⟩ => rfl
    rw [hi]
    rfl

/-- The divisor: max(1, count). -/
theorem v4_eq (b : Fin NB) : Read.val_main_v4 (F := Ideal) x1 (ix1 b) = cnt (ids x1) b := by
  rw [Read.val_main_v4_apply, v3_eq, Read.val_main_call0_v1_apply, Read.val_main_call0_v0_apply,
    Read.val_main_cst_1_apply]
  rfl

/-- The divisor laid along the channels, for the mean … -/
theorem v9_eq (b : Fin NB) (c : Fin NC) : Read.val_main_v9 (F := Ideal) x1 (ix2 b c) = cnt (ids x1) b := by
  rw [Read.val_main_v9_apply, Read.val_main_v5_apply]
  have hi : Read.idx_main_v5 (Read.idx_main_v9 (ix2 b c)) = ix1 b := by
    funext a; match a with | ⟨0, _⟩ => rfl
  rw [hi, v4_eq]

/-- … and for the variance. -/
theorem v23_eq (b : Fin NB) (c : Fin NC) : Read.val_main_v23 (F := Ideal) x1 (ix2 b c) = cnt (ids x1) b := by
  rw [Read.val_main_v23_apply, Read.val_main_v5_apply]
  have hi : Read.idx_main_v5 (Read.idx_main_v23 (ix2 b c)) = ix1 b := by
    funext a; match a with | ⟨0, _⟩ => rfl
  rw [hi, v4_eq]

/-- The segment sums of the table. -/
theorem v8_eq (b : Fin NB) (c : Fin NC) :
    Read.val_main_v8 (F := Ideal) x0 x1 (ix2 b c) = segSum (ids x1) (fun n => xs x0 n c) b := by
  unfold Read.val_main_v8
  refine (scatter2_apply _ (fun i => ?_) _ _ b c).trans ?_
  · rw [Read.val_main_v6_apply, Read.val_main_cst_2_apply]
    exact Ideal.ofBits_zero_f32
  · unfold segSum
    refine Finset.sum_congr rfl fun n _ => ?_
    rw [Read.val_main_v7_apply]
    have hi : Read.idx_main_v7 (ix2 n (0 : Fin 1)) = ix1 n := by
      funext a; match a with | ⟨0, _⟩ => rfl
    rw [hi]

/-- The segment means. -/
theorem v10_eq (b : Fin NB) (c : Fin NC) :
    Read.val_main_v10 (F := Ideal) x0 x1 (ix2 b c) = mean (xs x0) (ids x1) b c := by
  rw [Read.val_main_v10_apply, v8_eq, v9_eq]
  rfl

/-- The first gather's start index of row `n`: the id normalised. -/
theorem v16_eq (n : Fin NR) :
    Read.val_main_v16 (F := Ideal) x1 (ix2 n (0 : Fin 1))
      = if (x1 (ix1 n)).toInt < 0 then x1 (ix1 n) + 8#32 else x1 (ix1 n) := by
  have hi : Read.idx_main_v16 (ix2 n (0 : Fin 1)) = ix1 n := by
    funext a; match a with | ⟨0, _⟩ => rfl
  rw [Read.val_main_v16_apply, hi, Read.val_main_v15_apply, Read.val_main_v12_apply, Read.val_main_v14_apply,
    Read.val_main_v11_apply, Read.val_main_v13_apply, Read.val_main_c_apply, Read.val_main_c_3_apply, select_norm]

/-- The second gather's, the same. -/
theorem v33_eq (n : Fin NR) :
    Read.val_main_v33 (F := Ideal) x1 (ix2 n (0 : Fin 1))
      = if (x1 (ix1 n)).toInt < 0 then x1 (ix1 n) + 8#32 else x1 (ix1 n) := by
  have hi : Read.idx_main_v33 (ix2 n (0 : Fin 1)) = ix1 n := by
    funext a; match a with | ⟨0, _⟩ => rfl
  rw [Read.val_main_v33_apply, hi, Read.val_main_v32_apply, Read.val_main_v29_apply, Read.val_main_v31_apply,
    Read.val_main_v28_apply, Read.val_main_v30_apply, Read.val_main_c_6_apply, Read.val_main_c_7_apply, select_norm]

/-- The row's mean: the mean table at the row's chosen segment. -/
theorem v17_eq (n : Fin NR) (c : Fin NC) :
    Read.val_main_v17 (F := Ideal) x0 x1 (ix2 n c) = mean (xs x0) (ids x1) (segs x1 n) c := by
  unfold Read.val_main_v17
  refine (gather_apply _ _ n c).trans ?_
  have hb : (⟨min (Read.val_main_v16 (F := Ideal) x1 (ix2 n (0 : Fin 1))).toInt.toNat 7,
      Nat.lt_of_le_of_lt (Nat.min_le_right _ _) (by decide)⟩ : Fin NB) = seg (x1 (ix1 n)) := by
    apply Fin.ext
    show min (Read.val_main_v16 (F := Ideal) x1 (ix2 n (0 : Fin 1))).toInt.toNat 7 = _
    rw [v16_eq]; rfl
  rw [hb, v10_eq]

/-- The centred row. -/
theorem v18_eq (n : Fin NR) (c : Fin NC) :
    Read.val_main_v18 (F := Ideal) x0 x1 (ix2 n c) = rDiff (xs x0) (ids x1) (segs x1) n c := by
  rw [Read.val_main_v18_apply, v17_eq]
  rfl

/-- The segment sums of the squared centred rows. -/
theorem v22_eq (b : Fin NB) (c : Fin NC) :
    Read.val_main_v22 (F := Ideal) x0 x1 (ix2 b c)
      = segSum (ids x1) (fun n => rDiff (xs x0) (ids x1) (segs x1) n c * rDiff (xs x0) (ids x1) (segs x1) n c) b := by
  unfold Read.val_main_v22
  refine (scatter2_apply _ (fun i => ?_) _ _ b c).trans ?_
  · rw [Read.val_main_v20_apply, Read.val_main_cst_4_apply]
    exact Ideal.ofBits_zero_f32
  · unfold segSum
    refine Finset.sum_congr rfl fun n _ => ?_
    rw [Read.val_main_v21_apply, Read.val_main_v19_apply, v18_eq]
    have hi : Read.idx_main_v21 (ix2 n (0 : Fin 1)) = ix1 n := by
      funext a; match a with | ⟨0, _⟩ => rfl
    rw [hi]
    rfl

/-- The deviation table: the root of variance plus ε. -/
theorem v27_eq (b : Fin NB) (c : Fin NC) :
    Read.val_main_v27 (F := Ideal) x0 x1 (ix2 b c)
      = Ideal.sqrt (rVar (xs x0) (ids x1) (segs x1) b c + eps) := by
  rw [Read.val_main_v27_apply, Read.val_main_v26_apply, Read.val_main_v24_apply, v22_eq, v23_eq,
    Read.val_main_v25_apply, Read.val_main_cst_5_apply, Ideal.hostUnary_sqrt_def, Ideal.addf_def,
    Ideal.hostDivf_def, Ideal.ofBits_def]
  rfl

/-- The row's deviation: the deviation table at the row's chosen segment. -/
theorem v34_eq (n : Fin NR) (c : Fin NC) :
    Read.val_main_v34 (F := Ideal) x0 x1 (ix2 n c)
      = Ideal.sqrt (rVar (xs x0) (ids x1) (segs x1) (segs x1 n) c + eps) := by
  unfold Read.val_main_v34
  refine (gather_apply _ _ n c).trans ?_
  have hb : (⟨min (Read.val_main_v33 (F := Ideal) x1 (ix2 n (0 : Fin 1))).toInt.toNat 7,
      Nat.lt_of_le_of_lt (Nat.min_le_right _ _) (by decide)⟩ : Fin NB) = seg (x1 (ix1 n)) := by
    apply Fin.ext
    show min (Read.val_main_v33 (F := Ideal) x1 (ix2 n (0 : Fin 1))).toInt.toNat 7 = _
    rw [v33_eq]; rfl
  rw [hb, v27_eq]

end Assemble

/-- THE REFERENCE PROGRAM'S RESULT at row `n`, channel `ch` is the second arrangement over the segments the normalised
    ids choose. -/
theorem ref_value (x0 : S1000000x64.Idx → EReal) (x1 : S1000000.Idx → BitVec 32) (x2 x3 : S64.Idx → EReal)
    (n : Fin NR) (ch : Fin NC) :
    Cert.ReferenceIdeal.Read.val_main_v41 (F := Ideal) x0 x1 x2 x3 (ix2 n ch)
      = rOut (fun n c => x0 (ix2 n c)) (fun n => x1 (ix1 n)) (fun c => x2 (ix1 c)) (fun c => x3 (ix1 c))
          (fun n => seg (x1 (ix1 n))) n ch := by
  have h2 : Read.idx_main_v36 (Read.idx_main_v37 (ix2 n ch)) = ix1 ch := by
    funext a; match a with | ⟨0, _⟩ => rfl
  have h3 : Read.idx_main_v39 (Read.idx_main_v40 (ix2 n ch)) = ix1 ch := by
    funext a; match a with | ⟨0, _⟩ => rfl
  rw [Read.val_main_v41_apply, Read.val_main_v38_apply, Read.val_main_v35_apply, v18_eq, v34_eq,
    Read.val_main_v37_apply, Read.val_main_v36_apply, h2, Read.val_main_v40_apply, Read.val_main_v39_apply, h3]
  rfl

end Cert.ReferenceIdeal.RefValue

end
-- ==== Proof.Algebra.lean ====
/-
  The two arrangements of the per-segment normalisation agree on finite data.

  Under the hypothesis that every row's id is the word of its chosen segment, a row's weight in segment b is the
  indicator of "the row's segment is b", so a table read through a row's weights is its entry at the row's
  segment, and a segment sum is the sum over the segment's rows.  With real data every segment sum is a real,
  the divisor C = max(1, N) is a positive real, and over the reals, with S and Q the sums of r and r² over the
  segment and μ = S / C,

      (Σ (r − μ)²) / C = (Q − 2 μ S + μ² N) / C = Q / C − μ²:

  if the segment has a row then C = N; if it has none then N = S = Q = 0.  The left side is a sum of squares over
  a positive number, so the common value v is not negative and the clamp at zero of the first arrangement is the
  identity.  With ε a positive real, √(v + ε) is a positive real s; dividing by s and multiplying by 1 / s are
  the same operation on every extended real, which makes the two outputs equal whatever γ and β are.
-/
import proofs.«401720_j6047313953112_3_alg».proof.Proof.Spec

noncomputable section

open scoped BigOperators

namespace Cert.SegNorm

open Idealize.ShloMosaic

namespace Alg

/-! ### The three constants as extended reals -/

/-- The word of `+0.0` denotes the extended real zero. -/
theorem zero_eq : zero = 0 := by
  simp [Ideal.ofBits, Ideal.ieee]

/-- The word of `1.0` denotes the real one. -/
theorem one_eq : one = ((1 : ℝ) : EReal) := by
  simp [Ideal.ofBits, Ideal.ieee, -EReal.coe_mul]; norm_num

/-- The word of ε denotes a positive real: its sign bit is clear, its exponent field is 110 and its fraction
    field is 2606508, so it is (2²³ + 2606508) · 2⁻⁴⁰. -/
theorem eps_eq : ∃ e : ℝ, 0 < e ∧ eps = (e : EReal) := by
  refine ⟨(10995116 : ℝ) * (2 : ℝ) ^ (-40 : ℤ), by positivity, ?_⟩
  simp [Ideal.ofBits, Ideal.ieee, -EReal.coe_mul]

end Alg

namespace Alg

/-! ### Weights -/

/-- The words of two segment numbers below 8 agree only when the numbers do. -/
theorem ofNat_inj (a b : Fin NB) : BitVec.ofNat 32 a.val = BitVec.ofNat 32 b.val ↔ a = b := by
  constructor
  · intro h
    have h' := congrArg BitVec.toNat h
    simp only [BitVec.toNat_ofNat] at h'
    have ha : a.val < 8 := a.isLt
    have hb : b.val < 8 := b.isLt
    apply Fin.ext
    omega
  · intro h; rw [h]

/-- The weight of the word of segment `a` in segment `b` is the indicator of `a = b`. -/
theorem wtv_ofNat (a b : Fin NB) : wtv (BitVec.ofNat 32 a.val) b = if a = b then 1 else 0 := by
  unfold wtv
  by_cases h : a = b
  · rw [if_pos h, if_pos ((ofNat_inj a b).2 h)]
  · rw [if_neg h, if_neg (fun h' => h ((ofNat_inj a b).1 h'))]

/-- A table read through the weights of the word of segment `a` is the table's entry at `a`, whatever the
    entries are: `0 * t = 0` and `1 * t = t` hold on all of the extended reals. -/
theorem pick (a : Fin NB) (t : Fin NB → EReal) : ∑ b : Fin NB, wtv (BitVec.ofNat 32 a.val) b * t b = t a := by
  rw [Finset.sum_eq_single a]
  · rw [wtv_ofNat, if_pos rfl, one_mul]
  · intro b _ hb
    rw [wtv_ofNat, if_neg (fun h => hb h.symm), zero_mul]
  · intro h; exact absurd (Finset.mem_univ a) h

/-! ### Sums of reals inside the extended reals -/

/-- The coercion of a finite real sum is the sum of the coercions. -/
theorem coe_sum {α : Type} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A weighted sum of reals whose weights are indicators is the real sum over the indicated set. -/
theorem wsum_coe {ι : Type} [Fintype ι] (p : ι → Prop) [DecidablePred p] (w : ι → EReal)
    (hw : ∀ n, w n = if p n then 1 else 0) (f : ι → ℝ) :
    ∑ n, w n * (f n : EReal) = ((∑ n, if p n then f n else 0 : ℝ) : EReal) := by
  rw [coe_sum]
  refine Finset.sum_congr rfl fun n _ => ?_
  rw [hw n]
  by_cases h : p n
  · rw [if_pos h, if_pos h, one_mul]
  · rw [if_neg h, if_neg h, zero_mul, EReal.coe_zero]

/-! ### The variance identity over the reals

  Over any finite index set, with `p` the membership of a segment: N its count, S and Q the sums of r and r²
  over it, C = max(1, N) and μ = S / C. -/

section Real
variable {ι : Type} [Fintype ι] (p : ι → Prop) [DecidablePred p] (r : ι → ℝ)

/-- The divisor max(1, N) is positive. -/
theorem C_pos : 0 < max (1 : ℝ) (∑ n, if p n then (1 : ℝ) else 0) :=
  lt_of_lt_of_le one_pos (le_max_left _ _)

/-- A segment with a member has count at least one, so its divisor is its count. -/
theorem C_eq_of_mem (m : ι) (hm : p m) :
    max (1 : ℝ) (∑ n, if p n then (1 : ℝ) else 0) = ∑ n, if p n then (1 : ℝ) else 0 := by
  apply max_eq_right
  have h1 : (if p m then (1 : ℝ) else 0) ≤ ∑ n, if p n then (1 : ℝ) else 0 :=
    Finset.single_le_sum (f := fun n => if p n then (1 : ℝ) else 0)
      (fun n _ => by by_cases h : p n <;> simp [h]) (Finset.mem_univ m)
  rwa [if_pos hm] at h1

/-- A sum over an empty segment is zero. -/
theorem sum_empty (hp : ∀ n, ¬ p n) (f : ι → ℝ) : (∑ n, if p n then f n else 0) = 0 :=
  Finset.sum_eq_zero fun n _ => if_neg (hp n)

/-- Expanding the square: Σ (r − μ)² = Q − 2 μ S + μ² N over the segment. -/
theorem sum_sq_expand (μ : ℝ) :
    (∑ n, if p n then (r n - μ) * (r n - μ) else 0)
      = (∑ n, if p n then r n * r n else 0) - 2 * μ * (∑ n, if p n then r n else 0)
        + μ * μ * (∑ n, if p n then (1 : ℝ) else 0) := by
  rw [Finset.mul_sum, Finset.mul_sum, ← Finset.sum_sub_distrib, ← Finset.sum_add_distrib]
  refine Finset.sum_congr rfl fun n _ => ?_
  by_cases h : p n
  · simp only [if_pos h]; ring
  · simp only [if_neg h]; ring

/-- The centred second moment over the divisor is the second moment over the divisor minus the squared mean. -/
theorem var_identity :
    (∑ n, if p n then (r n - (∑ n, if p n then r n else 0) / max (1 : ℝ) (∑ n, if p n then (1 : ℝ) else 0))
        * (r n - (∑ n, if p n then r n else 0) / max (1 : ℝ) (∑ n, if p n then (1 : ℝ) else 0)) else 0)
        / max (1 : ℝ) (∑ n, if p n then (1 : ℝ) else 0)
      = (∑ n, if p n then r n * r n else 0) / max (1 : ℝ) (∑ n, if p n then (1 : ℝ) else 0)
        - (∑ n, if p n then r n else 0) / max (1 : ℝ) (∑ n, if p n then (1 : ℝ) else 0)
          * ((∑ n, if p n then r n else 0) / max (1 : ℝ) (∑ n, if p n then (1 : ℝ) else 0)) := by
  by_cases hex : ∃ m, p m
  · obtain ⟨m, hm⟩ := hex
    have hC := C_eq_of_mem p m hm
    have hpos := C_pos p
    rw [hC] at hpos ⊢
    rw [sum_sq_expand]
    generalize (∑ n, if p n then (1 : ℝ) else 0) = N at hpos ⊢
    generalize (∑ n, if p n then r n else 0) = S
    generalize (∑ n, if p n then r n * r n else 0) = Q
    field_simp
    ring
  · have hp : ∀ n, ¬ p n := fun n h => hex ⟨n, h⟩
    simp only [sum_empty p hp]
    simp

/-- The centred second moment over the divisor is not negative. -/
theorem var_nonneg (μ : ℝ) :
    0 ≤ (∑ n, if p n then (r n - μ) * (r n - μ) else 0) / max (1 : ℝ) (∑ n, if p n then (1 : ℝ) else 0) := by
  apply div_nonneg _ (C_pos p).le
  refine Finset.sum_nonneg fun n _ => ?_
  by_cases h : p n
  · rw [if_pos h]; exact mul_self_nonneg _
  · rw [if_neg h]

end Real

end Alg

namespace Alg

/-! ### Scalars -/

/-- A real over a nonzero real, as an extended real. -/
theorem div_coe_coe (a C : ℝ) (hC : C ≠ 0) : Ideal.div (a : EReal) (C : EReal) = ((a / C : ℝ) : EReal) := by
  rw [Ideal.div_coe hC, ← EReal.coe_mul, mul_one_div]

/-- The root of a positive real is the real root. -/
theorem sqrt_coe_pos (v : ℝ) (hv : 0 < v) : Ideal.sqrt (v : EReal) = ((Real.sqrt v : ℝ) : EReal) := by
  rw [Ideal.sqrt_coe, if_neg (not_lt.2 hv.le)]

/-- Dividing by the root of a positive real is multiplying by the reciprocal of the real root, for every
    extended-real numerator. -/
theorem div_sqrt (a : EReal) (v : ℝ) (hv : 0 < v) :
    Ideal.div a (Ideal.sqrt (v : EReal)) = a * ((1 / Real.sqrt v : ℝ) : EReal) := by
  rw [sqrt_coe_pos v hv, Ideal.div_coe (Real.sqrt_pos.2 hv).ne']

/-! ### The real quantities of one channel -/

/-- The real mean of segment `b`: the sum of `r` over its rows over max(1, its count). -/
def mu (g : Fin NR → Fin NB) (r : Fin NR → ℝ) (b : Fin NB) : ℝ :=
  (∑ n, if g n = b then r n else 0) / max (1 : ℝ) (∑ n, if g n = b then (1 : ℝ) else 0)

/-- The real variance of segment `b`: second moment over the divisor minus the squared mean. -/
def va (g : Fin NR → Fin NB) (r : Fin NR → ℝ) (b : Fin NB) : ℝ :=
  (∑ n, if g n = b then r n * r n else 0) / max (1 : ℝ) (∑ n, if g n = b then (1 : ℝ) else 0)
    - mu g r b * mu g r b

/-- The variance is the centred second moment over the divisor. -/
theorem va_eq (g : Fin NR → Fin NB) (r : Fin NR → ℝ) (b : Fin NB) :
    (∑ n, if g n = b then (r n - mu g r b) * (r n - mu g r b) else 0)
        / max (1 : ℝ) (∑ n, if g n = b then (1 : ℝ) else 0) = va g r b := by
  unfold va mu
  exact var_identity (fun n => g n = b) r

/-- The variance is not negative. -/
theorem va_nonneg (g : Fin NR → Fin NB) (r : Fin NR → ℝ) (b : Fin NB) : 0 ≤ va g r b := by
  rw [← va_eq]
  exact var_nonneg (fun n => g n = b) r (mu g r b)

/-! ### The definitions at real data -/

section Bridge
variable (x : Fin NR → Fin NC → EReal) (sid : Fin NR → BitVec 32) (g : Fin NR → Fin NB)
  (hseg : ∀ n, sid n = BitVec.ofNat 32 (g n).val) (c : Fin NC) (r : Fin NR → ℝ)
  (hx : ∀ n, x n c = (r n : EReal))
include hseg

/-- A row's weight in segment `b` is the indicator of its chosen segment being `b`. -/
theorem wtv_sid (n : Fin NR) (b : Fin NB) : wtv (sid n) b = if g n = b then 1 else 0 := by
  rw [hseg n]; exact wtv_ofNat (g n) b

/-- A table read through a row's weights is the table's entry at the row's chosen segment. -/
theorem pick_sid (n : Fin NR) (t : Fin NB → EReal) : ∑ b : Fin NB, wtv (sid n) b * t b = t (g n) := by
  rw [hseg n]; exact pick (g n) t

/-- A segment sum of reals is the real sum over the segment's rows. -/
theorem segSum_coe (f : Fin NR → ℝ) (b : Fin NB) :
    segSum sid (fun n => (f n : EReal)) b = ((∑ n, if g n = b then f n else 0 : ℝ) : EReal) := by
  unfold segSum
  exact wsum_coe (fun n => g n = b) (fun n => wtv (sid n) b) (fun n => wtv_sid sid g hseg n b) f

/-- The divisor is the real max(1, count). -/
theorem cnt_coe (b : Fin NB) :
    cnt sid b = ((max (1 : ℝ) (∑ n, if g n = b then (1 : ℝ) else 0) : ℝ) : EReal) := by
  unfold cnt
  rw [one_eq]
  have h := segSum_coe sid g hseg (fun _ => (1 : ℝ)) b
  rw [h]
  exact (EReal.coe_strictMono.monotone.map_max).symm

/-- A segment average of reals is the real average. -/
theorem avg_coe (f : Fin NR → ℝ) (b : Fin NB) :
    Ideal.div (segSum sid (fun n => (f n : EReal)) b) (cnt sid b)
      = (((∑ n, if g n = b then f n else 0) / max (1 : ℝ) (∑ n, if g n = b then (1 : ℝ) else 0) : ℝ) : EReal) := by
  rw [segSum_coe sid g hseg f b, cnt_coe sid g hseg b]
  exact div_coe_coe _ _ (C_pos (fun n => g n = b)).ne'

include hx

/-- The mean is the real mean. -/
theorem mean_coe (b : Fin NB) : mean x sid b c = (mu g r b : EReal) := by
  unfold mean
  rw [show (fun n => x n c) = fun n => (r n : EReal) from funext hx]
  exact avg_coe sid g hseg r b

/-- The first arrangement's variance is the real variance: the clamp at zero is the identity. -/
theorem kVar_coe (b : Fin NB) : kVar x sid b c = (va g r b : EReal) := by
  unfold kVar
  rw [show (fun n => x n c * x n c) = fun n => ((r n * r n : ℝ) : EReal) from
    funext fun n => by rw [hx n, ← EReal.coe_mul]]
  rw [avg_coe sid g hseg (fun n => r n * r n) b, mean_coe x sid g hseg c r hx b, zero_eq,
    ← EReal.coe_mul, ← EReal.coe_sub]
  exact max_eq_left (EReal.coe_nonneg.2 (va_nonneg g r b))

/-- The centred row is real. -/
theorem rDiff_coe (n : Fin NR) : rDiff x sid g n c = ((r n - mu g r (g n) : ℝ) : EReal) := by
  unfold rDiff
  rw [hx n, mean_coe x sid g hseg c r hx (g n), ← EReal.coe_sub]

/-- The second arrangement's variance is the same real variance. -/
theorem rVar_coe (b : Fin NB) : rVar x sid g b c = (va g r b : EReal) := by
  unfold rVar
  rw [show (fun n => rDiff x sid g n c * rDiff x sid g n c)
      = fun n => (((r n - mu g r (g n)) * (r n - mu g r (g n)) : ℝ) : EReal) from
    funext fun n => by rw [rDiff_coe x sid g hseg c r hx n, ← EReal.coe_mul]]
  have hs : (∑ n, if g n = b then (r n - mu g r (g n)) * (r n - mu g r (g n)) else 0)
      = ∑ n, if g n = b then (r n - mu g r b) * (r n - mu g r b) else 0 := by
    refine Finset.sum_congr rfl fun n _ => ?_
    by_cases h : g n = b
    · rw [if_pos h, if_pos h, h]
    · rw [if_neg h, if_neg h]
  rw [avg_coe sid g hseg (fun n => (r n - mu g r (g n)) * (r n - mu g r (g n))) b, hs, va_eq g r b]

end Bridge

end Alg

theorem rOut_eq_kOut (x : Fin NR → Fin NC → EReal) (sid : Fin NR → BitVec 32) (γ β : Fin NC → EReal) (g : Fin NR → Fin NB)
    (hseg : ∀ n, sid n = BitVec.ofNat 32 (g n).val) (hfin : ∀ n c, ∃ r : ℝ, x n c = (r : EReal))
    (n : Fin NR) (c : Fin NC) :
    rOut x sid γ β g n c = kOut x sid γ β n c := by
  choose r hr using hfin
  obtain ⟨e, he, hee⟩ := Alg.eps_eq
  have hx : ∀ m, x m c = ((fun m => r m c) m : EReal) := fun m => hr m c
  have hpos : 0 < Alg.va g (fun m => r m c) (g n) + e := add_pos_of_nonneg_of_pos (Alg.va_nonneg _ _ _) he
  unfold rOut kOut kInv rDiff
  rw [Alg.pick_sid sid g hseg n, Alg.pick_sid sid g hseg n]
  rw [Alg.rVar_coe x sid g hseg c _ hx (g n), Alg.kVar_coe x sid g hseg c _ hx (g n), hee, ← EReal.coe_add,
    Alg.div_sqrt _ _ hpos, Alg.div_sqrt _ _ hpos, Alg.one_eq, EReal.coe_one, one_mul]

end Cert.SegNorm

end
-- ==== Proof.Pre.lean ====
import proofs.«401720_j6047313953112_3_alg».proof.Pre_finite_inputs
import Idealize.ShloMosaic.PureOps.Ideal
import Idealize.ShloMosaic.Lib.ReduceAll
import Idealize.ShloMosaic.Lib.ValueIdx
import Idealize.ShloMosaic.Lib.StableHlo.Predicate

/-!
  The precondition, decoded. The printed predicate is a conjunction of five universally quantified
  comparisons; from its value 1 we read: every entry of the feature array is a real number
  (its absolute value lies strictly below +∞), and every batch index lies in [0, 8) as a signed word.
-/

noncomputable section

namespace Cert.PreFacts

open Idealize.ShloMosaic Idealize.ShloMosaic.ValueIdx

/-- The word 0x7F800000 (zero sign, all-ones exponent, zero significand) denotes +∞. -/
private theorem ofBits_inf : Ideal.ofBits .f32 0x7F800000#32 = (⊤ : EReal) := by
  simp [Ideal.ofBits, Ideal.ieee]

/-- An extended real whose absolute value max(x, -x) is strictly below +∞ is a real:
    at x = -∞ the maximum is -(-∞) = +∞, at x = +∞ it is +∞. -/
private theorem real_of_abs_lt_top (x : EReal) (hx : max x (-x) < (⊤ : EReal)) : ∃ r : ℝ, x = (r : EReal) := by
  induction x using EReal.rec with
  | bot => simp at hx
  | coe r => exact ⟨r, rfl⟩
  | top => simp at hx

variable [Cert.Pre_finite_inputs.Facts]

theorem of_pre (a0 : FVec Ideal Cert.Pre_finite_inputs.S1000000x64 .f32) (a1 : IVec Cert.Pre_finite_inputs.S1000000 32)
    (a2 a3 : FVec Ideal Cert.Pre_finite_inputs.S64 .f32)
    (h : Cert.Pre_finite_inputs.fn (F := Ideal) a0 a1 a2 a3 = fun _ => 1#1) :
    (∀ (n : Fin 1000000) (c : Fin 64), ∃ r : ℝ, a0 (ix2 n c) = (r : EReal))
      ∧ (∀ n : Fin 1000000, 0 ≤ (a1 (ix1 n)).toInt ∧ (a1 (ix1 n)).toInt < 8) := by
  -- A shape of rank 0 has exactly one index.
  haveI : Subsingleton Cert.Pre_finite_inputs.S_.Idx := ⟨fun a b => funext fun d => d.elim0⟩
  -- The predicate at its one index: a conjunction of five reductions by `and`.
  have h0 := congrFun h ValueIdx.ix0
  dsimp only [Cert.Pre_finite_inputs.fn, Cert.Pre_finite_inputs.fn_part1] at h0
  -- A conjunction of bits is 1 exactly when each bit is 1.
  simp only [Idealize.ShloMosaic.andi, IntOp.andi_eq_one] at h0
  obtain ⟨⟨⟨⟨h3, -⟩, -⟩, h16⟩, h20⟩ := h0
  refine ⟨fun n c => ?_, fun n => ⟨?_, ?_⟩⟩
  · -- |a0 (n, c)| < +∞: a reduction by `and` that is 1 met a 1 at every index.
    have e := Host.reduce_andi_all _ _ _ _ _ h3 (ix2 n c)
    have e' : Ideal.cmp .olt (max (a0 (ix2 n c)) (-(a0 (ix2 n c)))) (Ideal.ofBits .f32 0x7F800000#32) = 1#1 := e
    rw [ofBits_inf] at e'
    simp only [Ideal.cmp, StableHlo.Predicate.ofBool_eq_one_iff, decide_eq_true_eq] at e'
    exact real_of_abs_lt_top _ e'
  · -- 0 ≤ a1 n, read signed.
    have e := Host.reduce_andi_all _ _ _ _ _ h16 (ix1 n)
    have e' : IntOp.cmpi .sge (a1 (ix1 n)) 0#32 = 1#1 := e
    rw [IntOp.cmpi_sge] at e'
    exact e'
  · -- a1 n < 8, read signed.
    have e := Host.reduce_andi_all _ _ _ _ _ h20 (ix1 n)
    have e' : IntOp.cmpi .slt (a1 (ix1 n)) 8#32 = 1#1 := e
    rw [IntOp.cmpi_slt] at e'
    exact e'

end Cert.PreFacts

end
-- ==== Proof.lean ====
/-
  Per-segment layer normalisation, the kernel against its reference, over the extended reals.

  Each of 1000000 rows of a 64-channel table carries a segment id; under the precondition every table entry is finite
  and every id lies in 0..7. The kernel makes two sweeps. The first accumulates, per segment and channel, the sum
  and the sum of squares of the rows, and per segment the row count, as products of the transposed one-hot of the ids
  with the row blocks; the host turns them into a mean table and a reciprocal-deviation table
  1/√(max(E[x²] − mean², 0) + ε). The second sweep picks each row's two table rows by the one-hot and writes
  (x − mean) · inv · γ + β. The reference scatters the rows into segment sums, gathers each row's mean back, scatters
  the squared centred rows, and divides by the gathered deviation.

  Both are the specification's functions of the launched arguments (`kOut`, `rOut`), and those agree when the ids are
  in range and the table is finite: a row's weights pick exactly its own segment, and over the reals
  Σ (x − μ)² / cnt = Σ x² / cnt − μ², which is non-negative, so the clamp is the identity and x/s = x · (1/s) for s > 0.
  The ideal pass rewrote nothing, so the kernel's idealization is its own text.
-/
import proofs.«401720_j6047313953112_3_alg».proof.Defs
import proofs.«401720_j6047313953112_3_alg».proof.Proof.Gen.Kernel
import proofs.«401720_j6047313953112_3_alg».proof.Proof.Gen.Kernel.Frame
import proofs.«401720_j6047313953112_3_alg».proof.Proof.Gen.KernelIdeal
import proofs.«401720_j6047313953112_3_alg».proof.Proof.Gen.KernelIdeal.Frame
import proofs.«401720_j6047313953112_3_alg».proof.Proof.Gen.ReferenceIdeal
import proofs.«401720_j6047313953112_3_alg».proof.Proof.Gen.ReferenceIdeal.Run
import proofs.«401720_j6047313953112_3_alg».proof.Proof.Gen.ReferenceIdeal.Read
import proofs.«401720_j6047313953112_3_alg».proof.Proof.Gen.Pre_finite_inputs
import proofs.«401720_j6047313953112_3_alg».proof.Proof.KernelValue
import proofs.«401720_j6047313953112_3_alg».proof.Proof.Reference
import proofs.«401720_j6047313953112_3_alg».proof.Proof.Algebra
import proofs.«401720_j6047313953112_3_alg».proof.Proof.Pre

noncomputable section

namespace Cert.Proof

open Idealize.ShloMosaic Idealize.ShloMosaic.TcCoe Idealize.ShloMosaic.ValueIdx Idealize.SL.Sem Cert.SegNorm

/-- The word-level kernel runs and leaves its arguments as launched. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- The reference is a straight line of host operations: its run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The two idealized programs, from memories agreeing on the arguments, end with the same result array: the kernel's
    is the first arrangement of the launched arguments, the reference's the second with each row's segment read off
    its id, and under the precondition the two arrangements are one function. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Result.outArr m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2.1, (hagree c).2.2.1, (hagree c).2.2.2]
  have hp := Cert.PreFacts.of_pre _ _ _ _ (hpre c)
  funext j
  obtain ⟨n, ch, rfl⟩ : ∃ (n : Fin NR) (ch : Fin NC), j = ix2 n ch := ⟨j 0, j 1, eq_ix2 j⟩
  rw [Cert.ReferenceIdeal.RefValue.ref_value]
  exact rOut_eq_kOut _ _ _ _ _
    (fun n => Cert.ReferenceIdeal.RefValue.seg_of_range _ (hp.2 n).1 (hp.2 n).2) hp.1 n ch

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
